-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x2048 : Shape := ⟨2, ![8192, 2048]⟩
abbrev S2048x1024 : Shape := ⟨2, ![2048, 1024]⟩
abbrev S1x2048 : Shape := ⟨2, ![1, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part2 {F : FTy → Type} [FloatOps F] (main_arg7 : FVec F S1x2048 .f32) (main_arg8 : FVec F S1x2048 .f32) (main_arg9 : FVec F S1x2048 .f32) (main_v33 : IVec S_ 1) : IVec S_ 1 :=
  let main_v34 : FVec F S1x2048 .f32 := Host.absf main_arg7
  let main_cst_12 : FVec F S_ .f32 := constant S_ .f32 0x7F800000#32
  let main_v35 : FVec F S1x2048 .f32 := broadcastInDim S1x2048 ![] bcast_S_S1x2048 main_cst_12
  let main_v36 : IVec S1x2048 1 := cmpf .olt main_v34 main_v35
  let main_c_13 : IVec S_ 1 := constantI S_ 1 1#1
  let main_v37 : IVec S_ 1 := (fun x v => Host.reduce IntOp.andi x v reducesTo_S1x2048_S_d0_1 h_S_) main_v36 main_c_13
  let main_v38 : IVec S_ 1 := andi main_v33 main_v37
  let main_v39 : FVec F S1x2048 .f32 := Host.absf main_arg8
  let main_cst_14 : FVec F S_ .f32 := constant S_ .f32 0x7F800000#32
  let main_v40 : FVec F S1x2048 .f32 := broadcastInDim S1x2048 ![] bcast_S_S1x2048 main_cst_14
  let main_v41 : IVec S1x2048 1 := cmpf .olt main_v39 main_v40
  let main_c_15 : IVec S_ 1 := constantI S_ 1 1#1
  let main_v42 : IVec S_ 1 := (fun x v => Host.reduce IntOp.andi x v reducesTo_S1x2048_S_d0_1 h_S_) main_v41 main_c_15
  let main_v43 : IVec S_ 1 := andi main_v38 main_v42
  let main_v44 : FVec F S1x2048 .f32 := Host.absf main_arg9
  let main_cst_16 : FVec F S_ .f32 := constant S_ .f32 0x7F800000#32
  let main_v45 : FVec F S1x2048 .f32 := broadcastInDim S1x2048 ![] bcast_S_S1x2048 main_cst_16
  let main_v46 : IVec S1x2048 1 := cmpf .olt main_v44 main_v45
  let main_c_17 : IVec S_ 1 := constantI S_ 1 1#1
  let main_v47 : IVec S_ 1 := (fun x v => Host.reduce IntOp.andi x v reducesTo_S1x2048_S_d0_1 h_S_) main_v46 main_c_17
  let main_v48 : IVec S_ 1 := andi main_v43 main_v47
  main_v48

def fn_part1 {F : FTy → Type} [FloatOps F] (main_arg4 : FVec F S2048x1024 .f32) (main_arg5 : FVec F S2048x1024 .f32) (main_arg6 : FVec F S1x2048 .f32) (main_arg7 : FVec F S1x2048 .f32) (main_arg8 : FVec F S1x2048 .f32) (main_arg9 : FVec F S1x2048 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1x2048 .f32 := Host.absf main_arg6
  let main_cst_10 : FVec F S_ .f32 := constant S_ .f32 0x7F800000#32
  let main_v30 : FVec F S1x2048 .f32 := broadcastInDim S1x2048 ![] bcast_S_S1x2048 main_cst_10
  let main_v31 : IVec S1x2048 1 := cmpf .olt main_v29 main_v30
  let main_c_11 : IVec S_ 1 := constantI S_ 1 1#1
  let main_v32 : IVec S_ 1 := (fun x v => Host.reduce IntOp.andi x v reducesTo_S1x2048_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x1024 .f32) (main_arg1 : FVec F S8192x2048 .f32) (main_arg2 : FVec F S2048x1024 .f32) (main_arg3 : FVec F S2048x1024 .f32) (main_arg4 : FVec F S2048x1024 .f32) (main_arg5 : FVec F S2048x1024 .f32) (main_arg6 : FVec F S1x2048 .f32) (main_arg7 : FVec F S1x2048 .f32) (main_arg8 : FVec F S1x2048 .f32) (main_arg9 : FVec F S1x2048 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_v13 main_v16
-- ==== Kernel.lean ====
abbrev S8192x1024 : Shape := ⟨2, ![8192, 1024]⟩
abbrev S8192x2048 : Shape := ⟨2, ![8192, 2048]⟩
abbrev S2048x1024 : Shape := ⟨2, ![2048, 1024]⟩
abbrev S1x2048 : Shape := ⟨2, ![1, 2048]⟩
abbrev S1024x1024 : Shape := ⟨2, ![1024, 1024]⟩
abbrev S1024x4096 : Shape := ⟨2, ![1024, 4096]⟩
abbrev S1x1024 : Shape := ⟨2, ![1, 1024]⟩
abbrev S1x4096 : Shape := ⟨2, ![1, 4096]⟩
abbrev S256x1024 : Shape := ⟨2, ![256, 1024]⟩
abbrev S256x2048 : Shape := ⟨2, ![256, 2048]⟩
abbrev S256x4096 : Shape := ⟨2, ![256, 4096]⟩

abbrev nBuf : Space → Nat
  | .hbm => 40
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S8192x1024, .f32⟩
  | .hbm, ⟨11, _⟩ => ⟨S8192x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x4096, .f32⟩
  | .hbm, ⟨21, _⟩ => ⟨S1024x4096, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x4096, .f32⟩
  | .hbm, ⟨35, _⟩ => ⟨S8192x1024, .bf16⟩
  | .hbm, ⟨36, _⟩ => ⟨S8192x1024, .bf16⟩
  | .hbm, ⟨37, _⟩ => ⟨S1024x4096, .bf16⟩
  | .hbm, ⟨38, _⟩ => ⟨S1024x4096, .bf16⟩
  | .hbm, ⟨39, _⟩ => ⟨S8192x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x2048, .f32⟩
  | .local _ .vmem, ⟨10, _⟩ => ⟨S256x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S8192x2048_S8192x1024_0_0 : S8192x2048.Slices ![0, 0] S8192x1024
  slices_S8192x2048_S8192x1024_0_1024 : S8192x2048.Slices ![0, 1024] S8192x1024
  slices_S2048x1024_S1024x1024_0_0 : S2048x1024.Slices ![0, 0] S1024x1024
  slices_S2048x1024_S1024x1024_1024_0 : S2048x1024.Slices ![1024, 0] S1024x1024
  concatenates_S1024x1024_S1024x1024_S1024x1024_S1024x1024_S1024x4096_d1 : Shape.Concatenates [S1024x1024, S1024x1024, S1024x1024, S1024x1024] S1024x4096 1
  slices_S1x2048_S1x1024_0_0 : S1x2048.Slices ![0, 0] S1x1024
  slices_S1x2048_S1x1024_0_1024 : S1x2048.Slices ![0, 1024] S1x1024
  concatenates_S1x1024_S1x1024_S1x1024_S1x1024_S1x4096_d1 : Shape.Concatenates [S1x1024, S1x1024, S1x1024, S1x1024] S1x4096 1
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  inb_S256x2048_S256x1024_0_0 : ∀ a, (![0, 0] : Fin 2 → Nat) a + S256x1024.size a ≤ S256x2048.size a
  inb_S256x2048_S256x1024_0_1024 : ∀ a, (![0, 1024] : Fin 2 → Nat) a + S256x1024.size a ≤ S256x2048.size a
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .bf16 = 32 ∨ (Rect.block (s := S8192x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .bf16 = 32 ∨ (Rect.block (s := S8192x1024) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S8192x2048.size a
  hwx0_6 : ∀ i : grid0.Coords, EltTy.bits .f32 = 32 ∨ (Rect.block (s := S8192x2048) S256x2048.size (cc0_transform_6 i) (hinb0_6 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_v25) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S256x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x2048 : Shape := ⟨2, ![8192, 2048]⟩
abbrev S2048x1024 : Shape := ⟨2, ![2048, 1024]⟩
abbrev S1x2048 : Shape := ⟨2, ![1, 2048]⟩
abbrev S1024x1024 : Shape := ⟨2, ![1024, 1024]⟩
abbrev S1x1024 : Shape := ⟨2, ![1, 1024]⟩
abbrev S_ : Shape := ⟨0, ![]⟩

abbrev nBuf : Space → Nat
  | .hbm => 87
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S8192x1024, .f32⟩
  | .hbm, ⟨11, _⟩ => ⟨S8192x1024, .f32⟩
  | .hbm, ⟨12, _⟩ => ⟨S1024x1024, .f32⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S1024x1024, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S1024x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S1024x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S1024x1024, .f32⟩
  | .hbm, ⟨51, _⟩ => ⟨S8192x1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S1024x1024, .f32⟩
  | .hbm, ⟨56, _⟩ => ⟨S8192x1024, .f32⟩
  | .hbm, ⟨57, _⟩ => ⟨S8192x1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S1024x1024, .f32⟩
  | .hbm, ⟨66, _⟩ => ⟨S8192x1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S1024x1024, .f32⟩
  | .hbm, ⟨71, _⟩ => ⟨S8192x1024, .f32⟩
  | .hbm, ⟨72, _⟩ => ⟨S8192x1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_1 : Ref sig .tc := ⟨.hbm, 44, rfl⟩
abbrev main_v32 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_3 : Ref sig .tc := ⟨.hbm, 78, rfl⟩
abbrev main_v64 : Ref sig .tc := ⟨.hbm, 79, rfl⟩
abbrev main_v65 : Ref sig .tc := ⟨.hbm, 80, rfl⟩
abbrev main_cst_4 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩

abbrev nD : Nat := 1
abbrev τ : Topo := Topo.v7x

variable {F : FTy → Type} [FloatOps F]

class Facts₀ : Prop where
  slices_S8192x2048_S8192x1024_0_0 : S8192x2048.Slices ![0, 0] S8192x1024
  slices_S8192x2048_S8192x1024_0_1024 : S8192x2048.Slices ![0, 1024] S8192x1024
  slices_S2048x1024_S1024x1024_0_0 : S2048x1024.Slices ![0, 0] S1024x1024
  slices_S1x2048_S1x1024_0_0 : S1x2048.Slices ![0, 0] S1x1024
  bcast_S1x1024_S8192x1024_0_1 : S1x1024.BroadcastsInDim S8192x1024 (![0, 1] : Fin 2 → Fin S8192x1024.rank)
  slices_S2048x1024_S1024x1024_1024_0 : S2048x1024.Slices ![1024, 0] S1024x1024
  slices_S1x2048_S1x1024_0_1024 : S1x2048.Slices ![0, 1024] S1x1024
  bcast_S_S8192x1024 : S_.BroadcastsInDim S8192x1024 (![] : Fin 0 → Fin S8192x1024.rank)
  concatenates_S8192x1024_S8192x1024_S8192x2048_d1 : Shape.Concatenates [S8192x1024, S8192x1024] S8192x2048 1
  dot_S8192x1024_S1024x1024_S8192x1024_1_0_0_1_n_n_wf : DotDims.WF S8192x1024 S1024x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.BitsEntry.lean ====
/-
  The LSTM cell program up to its one kernel region, and what the region finds.

  Before the region the program only prepares operands: it splits the carried state into its hidden half and its
  cell half, cuts each gate's 2048 × 1024 weight matrix into the rows that meet `x` and the rows that meet `h`, lays
  the four gates' pieces side by side (1024 × 4096), adds each gate's two bias halves and lays the four sums side by
  side (1 × 4096), and narrows the matrix operands to bf16.  Every one of these twenty-nine operations writes a buffer
  of its own, never one of the ten arguments; so the region finds the arguments as launched, and since no window of the
  region is staged from an argument either, the arguments end as launched.
-/
import proofs.«124655_j50148038148717_1_alg».proof.Proof.Gen.Kernel.Launch
import proofs.«124655_j50148038148717_1_alg».proof.Proof.Gen.Kernel.Points
import Idealize.ShloMosaic.Lib.Pipeline.FrameBody

set_option maxRecDepth 16384

noncomputable section

namespace Cert.Kernel.Cell

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

variable (m : (ℓ : Loc nD τ sig) → Buf (Elt F) ℓ) (ρ : Dev nD → PrngReg)

/-! ## The program up to the region -/

/-- What core `c`'s buffers hold when the region is entered: the launch memory after the operand preparation. -/
abbrev V (c : Dev nD) (b : Ref sig .tc) : Buf (Elt F) ((c : Thread nD τ).loc b) :=
  StableHlo.after hostOps0 (fun b => m (c, b)) b

/-- None of the preparing operations allocates. -/
theorem hostOps0_fresh : (hostOps0 : List (HloOp τ sig (Elt F))).Forall fun op => op.fresh = ∅ := by
  simp only [List.Forall]; repeat' constructor

/-- The program is the operand preparation followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Each preparing operation writes its own result buffer, which is none of the arguments: the write sets are
    singletons, and the buffers are told apart by their numbers. -/
local macro "host_prefix_writes_elsewhere" : tactic => `(tactic| (
    simp only [hostOps0, List.Forall, StableHlo.nullary_writes, StableHlo.unary_writes, StableHlo.binary_writes,
      StableHlo.nary_writes, Finset.mem_singleton]
    repeat' apply And.intro
    all_goals exact StableHlo.devRef_ne_of_ne (by decide)))

theorem V_main_arg0 (c : Dev nD) : V m c main_arg0 = m ((c : Thread nD τ).loc main_arg0) :=
  StableHlo.after_of_forall_not_mem (b := Proc.devRef .tc main_arg0) _ _ (List.forall_iff_forall_mem.mp (by host_prefix_writes_elsewhere))
theorem V_main_arg1 (c : Dev nD) : V m c main_arg1 = m ((c : Thread nD τ).loc main_arg1) :=
  StableHlo.after_of_forall_not_mem (b := Proc.devRef .tc main_arg1) _ _ (List.forall_iff_forall_mem.mp (by host_prefix_writes_elsewhere))
theorem V_main_arg2 (c : Dev nD) : V m c main_arg2 = m ((c : Thread nD τ).loc main_arg2) :=
  StableHlo.after_of_forall_not_mem (b := Proc.devRef .tc main_arg2) _ _ (List.forall_iff_forall_mem.mp (by host_prefix_writes_elsewhere))
theorem V_main_arg3 (c : Dev nD) : V m c main_arg3 = m ((c : Thread nD τ).loc main_arg3) :=
  StableHlo.after_of_forall_not_mem (b := Proc.devRef .tc main_arg3) _ _ (List.forall_iff_forall_mem.mp (by host_prefix_writes_elsewhere))
theorem V_main_arg4 (c : Dev nD) : V m c main_arg4 = m ((c : Thread nD τ).loc main_arg4) :=
  StableHlo.after_of_forall_not_mem (b := Proc.devRef .tc main_arg4) _ _ (List.forall_iff_forall_mem.mp (by host_prefix_writes_elsewhere))
theorem V_main_arg5 (c : Dev nD) : V m c main_arg5 = m ((c : Thread nD τ).loc main_arg5) :=
  StableHlo.after_of_forall_not_mem (b := Proc.devRef .tc main_arg5) _ _ (List.forall_iff_forall_mem.mp (by host_prefix_writes_elsewhere))
theorem V_main_arg6 (c : Dev nD) : V m c main_arg6 = m ((c : Thread nD τ).loc main_arg6) :=
  StableHlo.after_of_forall_not_mem (b := Proc.devRef .tc main_arg6) _ _ (List.forall_iff_forall_mem.mp (by host_prefix_writes_elsewhere))
theorem V_main_arg7 (c : Dev nD) : V m c main_arg7 = m ((c : Thread nD τ).loc main_arg7) :=
  StableHlo.after_of_forall_not_mem (b := Proc.devRef .tc main_arg7) _ _ (List.forall_iff_forall_mem.mp (by host_prefix_writes_elsewhere))
theorem V_main_arg8 (c : Dev nD) : V m c main_arg8 = m ((c : Thread nD τ).loc main_arg8) :=
  StableHlo.after_of_forall_not_mem (b := Proc.devRef .tc main_arg8) _ _ (List.forall_iff_forall_mem.mp (by host_prefix_writes_elsewhere))
theorem V_main_arg9 (c : Dev nD) : V m c main_arg9 = m ((c : Thread nD τ).loc main_arg9) :=
  StableHlo.after_of_forall_not_mem (b := Proc.devRef .tc main_arg9) _ _ (List.forall_iff_forall_mem.mp (by host_prefix_writes_elsewhere))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each of the six input windows has, at every point, its block in its current buffer — whether the point fetched it
(the three batch-tiled windows, at every point) or an earlier point did and the block index has not moved since (the
weights and the bias, fetched once): for any proof data over the region-entry arrays whose body leaves inputs alone. -/

theorem found_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem found_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem found_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

/-- From a run that ends with every buffer outside the region's windows at its region-entry contents, the ten
    arguments end as launched: none is a window's array, and none was written before the region. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

end Cert.Kernel.Cell

end
-- ==== Proof.BitsBody.lean ====
/-
  The LSTM cell's body on one batch tile of 256 rows, as a statement about memory.

  The body reads six blocks — the tile's rows of `x` and of the previous hidden state `h` (both narrowed to bf16), the
  tile's rows of the previous cell state `c`, the two stacked weight matrices (1024 × 4096: the four gates' 1024 × 1024
  blocks side by side, in the order input, forget, output, candidate) and the stacked bias row (1 × 4096) — and writes
  one 256 × 2048 block in two halves: columns 0 … 1023 take the new hidden state `o · tanh c'`, columns 1024 … 2047
  the new cell state `c' = f · c + i · g`.  The two halves are disjoint and together tile the block, so what the block
  holds afterwards is a function of the six inputs alone, whatever it held before: `cellOut`.
-/
import proofs.«124655_j50148038148717_1_alg».proof.Proof.Gen.Kernel.Launch
import proofs.«124655_j50148038148717_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The rectangles the body reads and writes through -/

/-- A whole 256 × 1024 tile (the rows of `x`, of `h`, of `c`). -/
abbrev rTile : Rect S256x1024 := Rect.unit (s := S256x1024) ![0, 0] S256x1024.size inb_S256x1024_S256x1024_0_0
/-- A whole stacked weight matrix. -/
abbrev rWeights : Rect S1024x4096 := Rect.unit (s := S1024x4096) ![0, 0] S1024x4096.size inb_S1024x4096_S1024x4096_0_0
/-- The whole stacked bias row. -/
abbrev rBias : Rect S1x4096 := Rect.unit (s := S1x4096) ![0, 0] S1x4096.size inb_S1x4096_S1x4096_0_0
/-- The left half of the output block: columns 0 … 1023, the new hidden state. -/
abbrev rHidden : Rect S256x2048 := Rect.unit (s := S256x2048) ![0, 0] S256x1024.size inb_S256x2048_S256x1024_0_0
/-- The right half of the output block: columns 1024 … 2047, the new cell state. -/
abbrev rCellState : Rect S256x2048 := Rect.unit (s := S256x2048) ![0, 1024] S256x1024.size inb_S256x2048_S256x1024_0_1024

/-! ## What the body leaves in the output block -/

/-- The output block after the body, from the six input blocks: the cell state written last into the right half, the
    hidden state before it into the left half. -/
def cellOut (x h : Vec F S256x1024 .bf16) (cPrev : Vec F S256x1024 .f32) (wx wh : Vec F S1024x4096 .bf16)
    (b : Vec F S1x4096 .f32) : Vec F S256x2048 .f32 :=
  View.canon
    [⟨rCellState, k0_pay2 (View.ld x rTile) (View.ld h rTile) (View.ld wx rWeights) (View.ld wh rWeights) (View.ld b rBias) (View.ld cPrev rTile)⟩,
     ⟨rHidden, k0_pay3 (View.ld x rTile) (View.ld h rTile) (View.ld wx rWeights) (View.ld wh rWeights) (View.ld b rBias) (View.ld cPrev rTile)⟩]

/-- The two halves tile the 256 × 2048 block, so every position of it lies in one of them. -/
theorem halves_cover (p q : Vec F S256x1024 .f32) (y : S256x2048.Idx) :
    ∃ pc ∈ ([⟨rCellState, p⟩, ⟨rHidden, q⟩] : List (View.Piece (Elt F) S256x2048 .f32)), y ∈ pc.1.set :=
  View.cover_of_tiled [⟨rCellState, p⟩, ⟨rHidden, q⟩] S256x1024.size (by rfl) y

/-! ## The body's triple -/

set_option maxHeartbeats 1000000 in
/-- On whole buffers holding the six input blocks, and an output buffer holding anything, the body runs to its end
    without a fault, leaves the six inputs as they were and the output buffer at `cellOut` of them. -/
theorem cell_triple (c : Dev nD) (E : Set ℕ) (i : grid0.Coords)
    (a1 : Memref sig .tc .vmem S256x1024 .bf16) (h1 : a1.IsWhole) (a2 : Memref sig .tc .vmem S256x1024 .bf16) (h2 : a2.IsWhole)
    (a3 : Memref sig .tc .vmem S256x1024 .f32) (h3 : a3.IsWhole) (a4 : Memref sig .tc .vmem S1024x4096 .bf16) (h4 : a4.IsWhole)
    (a5 : Memref sig .tc .vmem S1024x4096 .bf16) (h5 : a5.IsWhole) (a6 : Memref sig .tc .vmem S1x4096 .f32) (h6 : a6.IsWhole)
    (a7 : Memref sig .tc .vmem S256x2048 .f32) (h7 : a7.IsWhole)
    (x h : Vec F S256x1024 .bf16) (cPrev : Vec F S256x1024 .f32) (wx wh : Vec F S1024x4096 .bf16) (b : Vec F S1x4096 .f32)
    (K : PUnit → sProp 𝕄) :
    iprop(owns (c : Thread nD τ) a1 fullShare x ∗ owns (c : Thread nD τ) a2 fullShare h ∗ owns (c : Thread nD τ) a3 fullShare cPrev
        ∗ owns (c : Thread nD τ) a4 fullShare wx ∗ owns (c : Thread nD τ) a5 fullShare wh ∗ owns (c : Thread nD τ) a6 fullShare b
        ∗ (∃ d, owns (c : Thread nD τ) a7 fullShare d)
        ∗ (iprop(owns (c : Thread nD τ) a1 fullShare x ∗ owns (c : Thread nD τ) a2 fullShare h ∗ owns (c : Thread nD τ) a3 fullShare cPrev
            ∗ owns (c : Thread nD τ) a4 fullShare wx ∗ owns (c : Thread nD τ) a5 fullShare wh ∗ owns (c : Thread nD τ) a6 fullShare b
            ∗ owns (c : Thread nD τ) a7 fullShare (cellOut x h cPrev wx wh b)) -∗ K ⟨⟩))
      ⊢ wp frame (wpE (defs₀ (F := F)) Variants.none c none) E (cc0__lstm_kernel i a1 h1 a2 h2 a3 h3 a4 h4 a5 h5 a6 h6 a7 h7) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (halves_cover _ _)

end Cert.Kernel.Cell

end
-- ==== Proof.BitsFrame.lean ====
/-
  The LSTM cell program runs to its end and leaves its ten arguments as launched.

  The region visits its 32 batch tiles in order.  At each tile the pipeline hands the body the tile's rows of `x`, `h`
  and `c`, the (unchanging) stacked weights and bias, and an output buffer; the body leaves the inputs alone and the
  output buffer at `cellOut` of them, which the pipeline writes back as rows 256·t … 256·t + 255 of the result.  Nothing
  else is touched, so the run ends with every array of the region at what these tiles make of it and every other buffer —
  the arguments among them — as the region found it.
-/
import proofs.«124655_j50148038148717_1_alg».proof.Proof.BitsEntry
import proofs.«124655_j50148038148717_1_alg».proof.Proof.BitsBody

set_option maxRecDepth 16384

noncomputable section

namespace Cert.Kernel.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at tile `t`, each input's buffer at its block and
    the output's at `cellOut` of the six input blocks; nothing kept between tiles but the untouched rest; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => cellOut (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) :
    (dats m 0 c).after 6 t = cellOut (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  found_0 m (dats m 0 c) (A_eq m c 0) (after_0 m c) t d
theorem before_1 (c : Dev nD) (t : Fin cfg0.N) (d) : (dats m 0 c).before 1 t d = iblk m c 1 t :=
  found_1 m (dats m 0 c) (A_eq m c 1) (after_1 m c) t d
theorem before_2 (c : Dev nD) (t : Fin cfg0.N) (d) : (dats m 0 c).before 2 t d = iblk m c 2 t :=
  found_2 m (dats m 0 c) (A_eq m c 2) (after_2 m c) t d
theorem before_3 (c : Dev nD) (t : Fin cfg0.N) (d) : (dats m 0 c).before 3 t d = iblk m c 3 t :=
  found_3 m (dats m 0 c) (A_eq m c 3) (after_3 m c) t d
theorem before_4 (c : Dev nD) (t : Fin cfg0.N) (d) : (dats m 0 c).before 4 t d = iblk m c 4 t :=
  found_4 m (dats m 0 c) (A_eq m c 4) (after_4 m c) t d
theorem before_5 (c : Dev nD) (t : Fin cfg0.N) (d) : (dats m 0 c).before 5 t d = iblk m c 5 t :=
  found_5 m (dats m 0 c) (A_eq m c 5) (after_5 m c) t d

/-! ## The body obligation, at any tile -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any tile: the six input buffers hold their blocks, so the body's triple applies; the untouched rest
    passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (cell_triple c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on the body, at every tile. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the program terminates without a fault, with
    every array of the region at what the proof data makes of it and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program terminates, faults nowhere, and its ten arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Cell

end
-- ==== Proof.IdealEntry.lean ====
/-
  The LSTM cell program up to its one kernel region, and what the region finds.

  Before the region the program only prepares operands: it splits the carried state into its hidden half and its
  cell half, cuts each gate's 2048 × 1024 weight matrix into the rows that meet `x` and the rows that meet `h`, lays
  the four gates' pieces side by side (1024 × 4096), adds each gate's two bias halves and lays the four sums side by
  side (1 × 4096), and narrows the matrix operands to bf16.  Every one of these twenty-nine operations writes a buffer
  of its own, never one of the ten arguments; so the region finds the arguments as launched, and since no window of the
  region is staged from an argument either, the arguments end as launched.
-/
import proofs.«124655_j50148038148717_1_alg».proof.Proof.Gen.KernelIdeal.Launch
import proofs.«124655_j50148038148717_1_alg».proof.Proof.Gen.KernelIdeal.Points
import Idealize.ShloMosaic.Lib.Pipeline.FrameBody

set_option maxRecDepth 16384

noncomputable section

namespace Cert.KernelIdeal.Cell

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-! ## The program up to the region -/

/-- What core `c`'s buffers hold when the region is entered: the launch memory after the operand preparation. -/
abbrev V (c : Dev nD) (b : Ref sig .tc) : Buf (Elt F) ((c : Thread nD τ).loc b) :=
  StableHlo.after hostOps0 (fun b => m (c, b)) b

/-- None of the preparing operations allocates. -/
theorem hostOps0_fresh : (hostOps0 : List (HloOp τ sig (Elt F))).Forall fun op => op.fresh = ∅ := by
  simp only [List.Forall]; repeat' constructor

/-- The program is the operand preparation followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Each preparing operation writes its own result buffer, which is none of the arguments: the write sets are
    singletons, and the buffers are told apart by their numbers. -/
local macro "host_prefix_writes_elsewhere" : tactic => `(tactic| (
    simp only [hostOps0, List.Forall, StableHlo.nullary_writes, StableHlo.unary_writes, StableHlo.binary_writes,
      StableHlo.nary_writes, Finset.mem_singleton]
    repeat' apply And.intro
    all_goals exact StableHlo.devRef_ne_of_ne (by decide)))

theorem V_main_arg0 (c : Dev nD) : V m c main_arg0 = m ((c : Thread nD τ).loc main_arg0) :=
  StableHlo.after_of_forall_not_mem (b := Proc.devRef .tc main_arg0) _ _ (List.forall_iff_forall_mem.mp (by host_prefix_writes_elsewhere))
theorem V_main_arg1 (c : Dev nD) : V m c main_arg1 = m ((c : Thread nD τ).loc main_arg1) :=
  StableHlo.after_of_forall_not_mem (b := Proc.devRef .tc main_arg1) _ _ (List.forall_iff_forall_mem.mp (by host_prefix_writes_elsewhere))
theorem V_main_arg2 (c : Dev nD) : V m c main_arg2 = m ((c : Thread nD τ).loc main_arg2) :=
  StableHlo.after_of_forall_not_mem (b := Proc.devRef .tc main_arg2) _ _ (List.forall_iff_forall_mem.mp (by host_prefix_writes_elsewhere))
theorem V_main_arg3 (c : Dev nD) : V m c main_arg3 = m ((c : Thread nD τ).loc main_arg3) :=
  StableHlo.after_of_forall_not_mem (b := Proc.devRef .tc main_arg3) _ _ (List.forall_iff_forall_mem.mp (by host_prefix_writes_elsewhere))
theorem V_main_arg4 (c : Dev nD) : V m c main_arg4 = m ((c : Thread nD τ).loc main_arg4) :=
  StableHlo.after_of_forall_not_mem (b := Proc.devRef .tc main_arg4) _ _ (List.forall_iff_forall_mem.mp (by host_prefix_writes_elsewhere))
theorem V_main_arg5 (c : Dev nD) : V m c main_arg5 = m ((c : Thread nD τ).loc main_arg5) :=
  StableHlo.after_of_forall_not_mem (b := Proc.devRef .tc main_arg5) _ _ (List.forall_iff_forall_mem.mp (by host_prefix_writes_elsewhere))
theorem V_main_arg6 (c : Dev nD) : V m c main_arg6 = m ((c : Thread nD τ).loc main_arg6) :=
  StableHlo.after_of_forall_not_mem (b := Proc.devRef .tc main_arg6) _ _ (List.forall_iff_forall_mem.mp (by host_prefix_writes_elsewhere))
theorem V_main_arg7 (c : Dev nD) : V m c main_arg7 = m ((c : Thread nD τ).loc main_arg7) :=
  StableHlo.after_of_forall_not_mem (b := Proc.devRef .tc main_arg7) _ _ (List.forall_iff_forall_mem.mp (by host_prefix_writes_elsewhere))
theorem V_main_arg8 (c : Dev nD) : V m c main_arg8 = m ((c : Thread nD τ).loc main_arg8) :=
  StableHlo.after_of_forall_not_mem (b := Proc.devRef .tc main_arg8) _ _ (List.forall_iff_forall_mem.mp (by host_prefix_writes_elsewhere))
theorem V_main_arg9 (c : Dev nD) : V m c main_arg9 = m ((c : Thread nD τ).loc main_arg9) :=
  StableHlo.after_of_forall_not_mem (b := Proc.devRef .tc main_arg9) _ _ (List.forall_iff_forall_mem.mp (by host_prefix_writes_elsewhere))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each of the six input windows has, at every point, its block in its current buffer — whether the point fetched it
(the three batch-tiled windows, at every point) or an earlier point did and the block index has not moved since (the
weights and the bias, fetched once): for any proof data over the region-entry arrays whose body leaves inputs alone. -/

theorem found_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem found_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem found_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

/-- From a run that ends with every buffer outside the region's windows at its region-entry contents, the ten
    arguments end as launched: none is a window's array, and none was written before the region. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

end Cert.KernelIdeal.Cell

end
-- ==== Proof.IdealBody.lean ====
/-
  The LSTM cell's body on one batch tile of 256 rows, as a statement about memory.

  The body reads six blocks — the tile's rows of `x` and of the previous hidden state `h` (both narrowed to bf16), the
  tile's rows of the previous cell state `c`, the two stacked weight matrices (1024 × 4096: the four gates' 1024 × 1024
  blocks side by side, in the order input, forget, output, candidate) and the stacked bias row (1 × 4096) — and writes
  one 256 × 2048 block in two halves: columns 0 … 1023 take the new hidden state `o · tanh c'`, columns 1024 … 2047
  the new cell state `c' = f · c + i · g`.  The two halves are disjoint and together tile the block, so what the block
  holds afterwards is a function of the six inputs alone, whatever it held before: `cellOut`.
-/
import proofs.«124655_j50148038148717_1_alg».proof.Proof.Gen.KernelIdeal.Launch
import proofs.«124655_j50148038148717_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The rectangles the body reads and writes through -/

/-- A whole 256 × 1024 tile (the rows of `x`, of `h`, of `c`). -/
abbrev rTile : Rect S256x1024 := Rect.unit (s := S256x1024) ![0, 0] S256x1024.size inb_S256x1024_S256x1024_0_0
/-- A whole stacked weight matrix. -/
abbrev rWeights : Rect S1024x4096 := Rect.unit (s := S1024x4096) ![0, 0] S1024x4096.size inb_S1024x4096_S1024x4096_0_0
/-- The whole stacked bias row. -/
abbrev rBias : Rect S1x4096 := Rect.unit (s := S1x4096) ![0, 0] S1x4096.size inb_S1x4096_S1x4096_0_0
/-- The left half of the output block: columns 0 … 1023, the new hidden state. -/
abbrev rHidden : Rect S256x2048 := Rect.unit (s := S256x2048) ![0, 0] S256x1024.size inb_S256x2048_S256x1024_0_0
/-- The right half of the output block: columns 1024 … 2047, the new cell state. -/
abbrev rCellState : Rect S256x2048 := Rect.unit (s := S256x2048) ![0, 1024] S256x1024.size inb_S256x2048_S256x1024_0_1024

/-! ## What the body leaves in the output block -/

/-- The output block after the body, from the six input blocks: the cell state written last into the right half, the
    hidden state before it into the left half. -/
def cellOut (x h : Vec F S256x1024 .bf16) (cPrev : Vec F S256x1024 .f32) (wx wh : Vec F S1024x4096 .bf16)
    (b : Vec F S1x4096 .f32) : Vec F S256x2048 .f32 :=
  View.canon
    [⟨rCellState, k0_pay2 (View.ld x rTile) (View.ld h rTile) (View.ld wx rWeights) (View.ld wh rWeights) (View.ld b rBias) (View.ld cPrev rTile)⟩,
     ⟨rHidden, k0_pay3 (View.ld x rTile) (View.ld h rTile) (View.ld wx rWeights) (View.ld wh rWeights) (View.ld b rBias) (View.ld cPrev rTile)⟩]

/-- The two halves tile the 256 × 2048 block, so every position of it lies in one of them. -/
theorem halves_cover (p q : Vec F S256x1024 .f32) (y : S256x2048.Idx) :
    ∃ pc ∈ ([⟨rCellState, p⟩, ⟨rHidden, q⟩] : List (View.Piece (Elt F) S256x2048 .f32)), y ∈ pc.1.set :=
  View.cover_of_tiled [⟨rCellState, p⟩, ⟨rHidden, q⟩] S256x1024.size (by rfl) y

/-! ## The body's triple -/

set_option maxHeartbeats 1000000 in
/-- On whole buffers holding the six input blocks, and an output buffer holding anything, the body runs to its end
    without a fault, leaves the six inputs as they were and the output buffer at `cellOut` of them. -/
theorem cell_triple (c : Dev nD) (E : Set ℕ) (i : grid0.Coords)
    (a1 : Memref sig .tc .vmem S256x1024 .bf16) (h1 : a1.IsWhole) (a2 : Memref sig .tc .vmem S256x1024 .bf16) (h2 : a2.IsWhole)
    (a3 : Memref sig .tc .vmem S256x1024 .f32) (h3 : a3.IsWhole) (a4 : Memref sig .tc .vmem S1024x4096 .bf16) (h4 : a4.IsWhole)
    (a5 : Memref sig .tc .vmem S1024x4096 .bf16) (h5 : a5.IsWhole) (a6 : Memref sig .tc .vmem S1x4096 .f32) (h6 : a6.IsWhole)
    (a7 : Memref sig .tc .vmem S256x2048 .f32) (h7 : a7.IsWhole)
    (x h : Vec F S256x1024 .bf16) (cPrev : Vec F S256x1024 .f32) (wx wh : Vec F S1024x4096 .bf16) (b : Vec F S1x4096 .f32)
    (K : PUnit → sProp 𝕄) :
    iprop(owns (c : Thread nD τ) a1 fullShare x ∗ owns (c : Thread nD τ) a2 fullShare h ∗ owns (c : Thread nD τ) a3 fullShare cPrev
        ∗ owns (c : Thread nD τ) a4 fullShare wx ∗ owns (c : Thread nD τ) a5 fullShare wh ∗ owns (c : Thread nD τ) a6 fullShare b
        ∗ (∃ d, owns (c : Thread nD τ) a7 fullShare d)
        ∗ (iprop(owns (c : Thread nD τ) a1 fullShare x ∗ owns (c : Thread nD τ) a2 fullShare h ∗ owns (c : Thread nD τ) a3 fullShare cPrev
            ∗ owns (c : Thread nD τ) a4 fullShare wx ∗ owns (c : Thread nD τ) a5 fullShare wh ∗ owns (c : Thread nD τ) a6 fullShare b
            ∗ owns (c : Thread nD τ) a7 fullShare (cellOut x h cPrev wx wh b)) -∗ K ⟨⟩))
      ⊢ wp frame (wpE (defs₀ (F := F)) Variants.none c none) E (cc0__lstm_kernel i a1 h1 a2 h2 a3 h3 a4 h4 a5 h5 a6 h6 a7 h7) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (halves_cover _ _)

end Cert.KernelIdeal.Cell

end
-- ==== Proof.IdealFrame.lean ====
/-
  The LSTM cell program runs to its end and leaves its ten arguments as launched.

  The region visits its 32 batch tiles in order.  At each tile the pipeline hands the body the tile's rows of `x`, `h`
  and `c`, the (unchanging) stacked weights and bias, and an output buffer; the body leaves the inputs alone and the
  output buffer at `cellOut` of them, which the pipeline writes back as rows 256·t … 256·t + 255 of the result.  Nothing
  else is touched, so the run ends with every array of the region at what these tiles make of it and every other buffer —
  the arguments among them — as the region found it.
-/
import proofs.«124655_j50148038148717_1_alg».proof.Proof.IdealEntry
import proofs.«124655_j50148038148717_1_alg».proof.Proof.IdealBody

set_option maxRecDepth 16384

noncomputable section

namespace Cert.KernelIdeal.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at tile `t`, each input's buffer at its block and
    the output's at `cellOut` of the six input blocks; nothing kept between tiles but the untouched rest; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => cellOut (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) :
    (dats m 0 c).after 6 t = cellOut (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  found_0 m (dats m 0 c) (A_eq m c 0) (after_0 m c) t d
theorem before_1 (c : Dev nD) (t : Fin cfg0.N) (d) : (dats m 0 c).before 1 t d = iblk m c 1 t :=
  found_1 m (dats m 0 c) (A_eq m c 1) (after_1 m c) t d
theorem before_2 (c : Dev nD) (t : Fin cfg0.N) (d) : (dats m 0 c).before 2 t d = iblk m c 2 t :=
  found_2 m (dats m 0 c) (A_eq m c 2) (after_2 m c) t d
theorem before_3 (c : Dev nD) (t : Fin cfg0.N) (d) : (dats m 0 c).before 3 t d = iblk m c 3 t :=
  found_3 m (dats m 0 c) (A_eq m c 3) (after_3 m c) t d
theorem before_4 (c : Dev nD) (t : Fin cfg0.N) (d) : (dats m 0 c).before 4 t d = iblk m c 4 t :=
  found_4 m (dats m 0 c) (A_eq m c 4) (after_4 m c) t d
theorem before_5 (c : Dev nD) (t : Fin cfg0.N) (d) : (dats m 0 c).before 5 t d = iblk m c 5 t :=
  found_5 m (dats m 0 c) (A_eq m c 5) (after_5 m c) t d

/-! ## The body obligation, at any tile -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any tile: the six input buffers hold their blocks, so the body's triple applies; the untouched rest
    passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (cell_triple c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on the body, at every tile. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the program terminates without a fault, with
    every array of the region at what the proof data makes of it and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program terminates, faults nowhere, and its ten arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Cell

end
-- ==== Proof.LstmSpec.lean ====
/-
  The LSTM cell as one function of its ten arguments, over the extended reals.

  With `x` (8192 × 1024), the carried state `s = [h | c]` (8192 × 2048), a gate's weights `w` (2048 × 1024: rows 0 … 1023
  meet `x`, rows 1024 … 2047 meet `h`) and its bias `b` (1 × 2048: two halves, both added), the gate's pre-activation at
  batch row `r` and unit `j` is

      z(r, j) = Σₖ x(r, k) · w(k, j)  +  b(j)  +  Σₖ h(r, k) · w(1024 + k, j)  +  b(1024 + j).

  The cell then computes `c' = σ(z_f) · c + σ(z_i) · tanh(z_g)` and `h' = σ(z_o) · tanh(c')`, and returns `[h' | c']`.
  The four terms of `z` may be added in any grouping: addition on the extended reals is associative and commutative
  (an infinity changes the value of a sum, never its independence of the grouping), so no finiteness is needed.
-/
import Idealize.ShloMosaic.PureOps.Ideal
import Idealize.ShloMosaic.Lib.ValueIdx

noncomputable section

open scoped BigOperators

namespace Cert.LstmSpec

open Idealize.ShloMosaic Idealize.ShloMosaic.ValueIdx

/-- Column or row `k` of a lower half (the part that meets `x`; the first bias half; the hidden half of the state). -/
abbrev lo (k : Fin 1024) : Fin 2048 := ⟨k.val, by omega⟩
/-- Column or row `1024 + k` of an upper half (the part that meets `h`; the second bias half; the cell half of the state). -/
abbrev hi (k : Fin 1024) : Fin 2048 := ⟨1024 + k.val, by omega⟩

abbrev Acts := (⟨2, ![8192, 1024]⟩ : Shape).Idx → EReal
abbrev State := (⟨2, ![8192, 2048]⟩ : Shape).Idx → EReal
abbrev Weights := (⟨2, ![2048, 1024]⟩ : Shape).Idx → EReal
abbrev Bias := (⟨2, ![1, 2048]⟩ : Shape).Idx → EReal

/-- A gate's pre-activation at row `r`, unit `j`, its four terms added from the left. -/
def gate (x : Acts) (s : State) (w : Weights) (b : Bias) (r : Fin 8192) (j : Fin 1024) : EReal :=
  (((∑ k : Fin 1024, x (ix2 r k) * w (ix2 (lo k) j)) + b (ix2 0 (lo j)))
    + (∑ k : Fin 1024, s (ix2 r (lo k)) * w (ix2 (hi k) j))) + b (ix2 0 (hi j))

/-- The same four terms with the two products added first and the two bias halves added first. -/
theorem gate_regrouped (x : Acts) (s : State) (w : Weights) (b : Bias) (r : Fin 8192) (j : Fin 1024) :
    ((∑ k : Fin 1024, x (ix2 r k) * w (ix2 (lo k) j)) + (∑ k : Fin 1024, s (ix2 r (lo k)) * w (ix2 (hi k) j)))
      + (b (ix2 0 (lo j)) + b (ix2 0 (hi j))) = gate x s w b r j := by
  unfold gate
  rw [add_add_add_comm, ← add_assoc]

/-- The new cell state `σ(z_f) · c + σ(z_i) · tanh(z_g)`. -/
def cellNew (x : Acts) (s : State) (wi wf wg : Weights) (bi bf bg : Bias) (r : Fin 8192) (j : Fin 1024) : EReal :=
  Ideal.logistic (gate x s wf bf r j) * s (ix2 r (hi j))
    + Ideal.logistic (gate x s wi bi r j) * Ideal.tanh (gate x s wg bg r j)

/-- The new hidden state `σ(z_o) · tanh(c')`. -/
def hiddenNew (x : Acts) (s : State) (wi wf wo wg : Weights) (bi bf bo bg : Bias) (r : Fin 8192) (j : Fin 1024) : EReal :=
  Ideal.logistic (gate x s wo bo r j) * Ideal.tanh (cellNew x s wi wf wg bi bf bg r j)

/-- The result `[h' | c']`: columns 0 … 1023 the new hidden state, columns 1024 … 2047 the new cell state. -/
def out (x : Acts) (s : State) (wi wf wo wg : Weights) (bi bf bo bg : Bias) : State := fun i =>
  if h : (i 1).val < 1024 then hiddenNew x s wi wf wo wg bi bf bo bg ⟨(i 0).val, idx2_lt0 i⟩ ⟨(i 1).val, h⟩
  else cellNew x s wi wf wg bi bf bg ⟨(i 0).val, idx2_lt0 i⟩ ⟨(i 1).val - 1024, by have := idx2_lt1 i; omega⟩

theorem out_lo (x : Acts) (s : State) (wi wf wo wg : Weights) (bi bf bo bg : Bias) (r : Fin 8192) (j : Fin 1024) :
    out x s wi wf wo wg bi bf bo bg (ix2 r (lo j)) = hiddenNew x s wi wf wo wg bi bf bo bg r j := by
  have h : ((ix2 r (lo j) : (⟨2, ![8192, 2048]⟩ : Shape).Idx) 1).val < 1024 := j.isLt
  unfold out
  rw [dif_pos h]

theorem out_hi (x : Acts) (s : State) (wi wf wo wg : Weights) (bi bf bo bg : Bias) (r : Fin 8192) (j : Fin 1024) :
    out x s wi wf wo wg bi bf bo bg (ix2 r (hi j)) = cellNew x s wi wf wg bi bf bg r j := by
  have h : ¬ ((ix2 r (hi j) : (⟨2, ![8192, 2048]⟩ : Shape).Idx) 1).val < 1024 := by
    show ¬ (1024 + j.val < 1024); omega
  unfold out
  rw [dif_neg h]
  congr 1
  apply Fin.ext
  show 1024 + j.val - 1024 = j.val
  omega

end Cert.LstmSpec

end
-- ==== Proof.IdealOperands.lean ====
/-
  What the LSTM cell's kernel region finds in its six input arrays, in terms of the ten arguments.

  The operand preparation narrows `x` (entry by entry, the identity over the extended reals); cuts the hidden half out of
  the state and narrows it; cuts the cell half out of the state; lays the four gates' `x`-rows of weights side by side
  and narrows them, and likewise their `h`-rows; and lays the four gates' summed bias halves side by side.  Read at a
  position: column `1024·g + q` of a stacked array is column `q` of gate `g`'s own piece.
-/
import proofs.«124655_j50148038148717_1_alg».proof.Proof.IdealEntry
import proofs.«124655_j50148038148717_1_alg».proof.Proof.LstmSpec
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Cell

open Idealize.ShloMosaic Idealize.ShloMosaic.TcCoe Idealize.SL.Sem Idealize.ShloMosaic.StableHlo
open Idealize.ShloMosaic.ValueIdx Cert.LstmSpec
open Cert.KernelIdeal.Gen

variable (m : (ℓ : Loc nD τ sig) → Buf (Elt Ideal) ℓ)

/-! ## The arguments as launched, and the region's input arrays as it finds them -/

abbrev argX (c : Dev nD) : FVec Ideal S8192x1024 .f32 := m ((c : Thread nD τ).loc main_arg0)
abbrev argS (c : Dev nD) : FVec Ideal S8192x2048 .f32 := m ((c : Thread nD τ).loc main_arg1)
abbrev argWi (c : Dev nD) : FVec Ideal S2048x1024 .f32 := m ((c : Thread nD τ).loc main_arg2)
abbrev argWf (c : Dev nD) : FVec Ideal S2048x1024 .f32 := m ((c : Thread nD τ).loc main_arg3)
abbrev argWo (c : Dev nD) : FVec Ideal S2048x1024 .f32 := m ((c : Thread nD τ).loc main_arg4)
abbrev argWg (c : Dev nD) : FVec Ideal S2048x1024 .f32 := m ((c : Thread nD τ).loc main_arg5)
abbrev argBi (c : Dev nD) : FVec Ideal S1x2048 .f32 := m ((c : Thread nD τ).loc main_arg6)
abbrev argBf (c : Dev nD) : FVec Ideal S1x2048 .f32 := m ((c : Thread nD τ).loc main_arg7)
abbrev argBo (c : Dev nD) : FVec Ideal S1x2048 .f32 := m ((c : Thread nD τ).loc main_arg8)
abbrev argBg (c : Dev nD) : FVec Ideal S1x2048 .f32 := m ((c : Thread nD τ).loc main_arg9)

abbrev entX (c : Dev nD) : FVec Ideal S8192x1024 .bf16 := V m c main_v25
abbrev entH (c : Dev nD) : FVec Ideal S8192x1024 .bf16 := V m c main_v26
abbrev entC (c : Dev nD) : FVec Ideal S8192x1024 .f32 := V m c main_v1
abbrev entWx (c : Dev nD) : FVec Ideal S1024x4096 .bf16 := V m c main_v27
abbrev entWh (c : Dev nD) : FVec Ideal S1024x4096 .bf16 := V m c main_v28
abbrev entB (c : Dev nD) : FVec Ideal S1x4096 .f32 := V m c main_v24

theorem entX_eq (c : Dev nD) : entX m c = truncf .bf16 (argX m c) bitsLt_bf16_f32 := by
  dsimp only [entX, V, hostOps0]; after_results
theorem entH_eq (c : Dev nD) :
    entH m c = truncf .bf16 (extractStridedSlice S8192x1024 ![0, 0] (argS m c) slices_S8192x2048_S8192x1024_0_0) bitsLt_bf16_f32 := by
  dsimp only [entH, V, hostOps0]; after_results
theorem entC_eq (c : Dev nD) :
    entC m c = extractStridedSlice S8192x1024 ![0, 1024] (argS m c) slices_S8192x2048_S8192x1024_0_1024 := by
  dsimp only [entC, V, hostOps0]; after_results
theorem entWx_eq (c : Dev nD) : entWx m c = truncf .bf16 (concatenate S1024x4096 1 [⟨S1024x1024, extractStridedSlice S1024x1024 ![0, 0] (argWi m c) slices_S2048x1024_S1024x1024_0_0⟩, ⟨S1024x1024, extractStridedSlice S1024x1024 ![0, 0] (argWf m c) slices_S2048x1024_S1024x1024_0_0⟩, ⟨S1024x1024, extractStridedSlice S1024x1024 ![0, 0] (argWo m c) slices_S2048x1024_S1024x1024_0_0⟩, ⟨S1024x1024, extractStridedSlice S1024x1024 ![0, 0] (argWg m c) slices_S2048x1024_S1024x1024_0_0⟩] concatenates_S1024x1024_S1024x1024_S1024x1024_S1024x1024_S1024x4096_d1) bitsLt_bf16_f32 := by
  dsimp only [entWx, V, hostOps0]; after_results; rfl
theorem entWh_eq (c : Dev nD) : entWh m c = truncf .bf16 (concatenate S1024x4096 1 [⟨S1024x1024, extractStridedSlice S1024x1024 ![1024, 0] (argWi m c) slices_S2048x1024_S1024x1024_1024_0⟩, ⟨S1024x1024, extractStridedSlice S1024x1024 ![1024, 0] (argWf m c) slices_S2048x1024_S1024x1024_1024_0⟩, ⟨S1024x1024, extractStridedSlice S1024x1024 ![1024, 0] (argWo m c) slices_S2048x1024_S1024x1024_1024_0⟩, ⟨S1024x1024, extractStridedSlice S1024x1024 ![1024, 0] (argWg m c) slices_S2048x1024_S1024x1024_1024_0⟩] concatenates_S1024x1024_S1024x1024_S1024x1024_S1024x1024_S1024x4096_d1) bitsLt_bf16_f32 := by
  dsimp only [entWh, V, hostOps0]; after_results; rfl
theorem entB_eq (c : Dev nD) : entB m c = concatenate S1x4096 1 [⟨S1x1024, addf (extractStridedSlice S1x1024 ![0, 0] (argBi m c) slices_S1x2048_S1x1024_0_0) (extractStridedSlice S1x1024 ![0, 1024] (argBi m c) slices_S1x2048_S1x1024_0_1024)⟩, ⟨S1x1024, addf (extractStridedSlice S1x1024 ![0, 0] (argBf m c) slices_S1x2048_S1x1024_0_0) (extractStridedSlice S1x1024 ![0, 1024] (argBf m c) slices_S1x2048_S1x1024_0_1024)⟩, ⟨S1x1024, addf (extractStridedSlice S1x1024 ![0, 0] (argBo m c) slices_S1x2048_S1x1024_0_0) (extractStridedSlice S1x1024 ![0, 1024] (argBo m c) slices_S1x2048_S1x1024_0_1024)⟩, ⟨S1x1024, addf (extractStridedSlice S1x1024 ![0, 0] (argBg m c) slices_S1x2048_S1x1024_0_0) (extractStridedSlice S1x1024 ![0, 1024] (argBg m c) slices_S1x2048_S1x1024_0_1024)⟩] concatenates_S1x1024_S1x1024_S1x1024_S1x1024_S1x4096_d1 := by
  dsimp only [entB, V, hostOps0]; after_results; rfl

/-! ## Cuts and stacks read at a position -/

theorem rowsLo_at (w : FVec Ideal S2048x1024 .f32) (k q : Fin 1024) :
    extractStridedSlice S1024x1024 ![0, 0] w slices_S2048x1024_S1024x1024_0_0 (ix2 k q) = w (ix2 (lo k) q) :=
  extractStridedSlice_apply ![0, 0] w slices_S2048x1024_S1024x1024_0_0 (ix2 k q) (ix2 (lo k) q) (fun a => by
    match a with
    | ⟨0, _⟩ => show k.val = 0 + k.val; omega
    | ⟨1, _⟩ => show q.val = 0 + q.val; omega)
theorem rowsHi_at (w : FVec Ideal S2048x1024 .f32) (k q : Fin 1024) :
    extractStridedSlice S1024x1024 ![1024, 0] w slices_S2048x1024_S1024x1024_1024_0 (ix2 k q) = w (ix2 (hi k) q) :=
  extractStridedSlice_apply ![1024, 0] w slices_S2048x1024_S1024x1024_1024_0 (ix2 k q) (ix2 (hi k) q) (fun a => by
    match a with
    | ⟨0, _⟩ => rfl
    | ⟨1, _⟩ => show q.val = 0 + q.val; omega)
theorem biasLo_at (b : FVec Ideal S1x2048 .f32) (q : Fin 1024) :
    extractStridedSlice S1x1024 ![0, 0] b slices_S1x2048_S1x1024_0_0 (ix2 0 q) = b (ix2 0 (lo q)) :=
  extractStridedSlice_apply ![0, 0] b slices_S1x2048_S1x1024_0_0 (ix2 0 q) (ix2 0 (lo q)) (fun a => by
    match a with
    | ⟨0, _⟩ => rfl
    | ⟨1, _⟩ => show q.val = 0 + q.val; omega)
theorem biasHi_at (b : FVec Ideal S1x2048 .f32) (q : Fin 1024) :
    extractStridedSlice S1x1024 ![0, 1024] b slices_S1x2048_S1x1024_0_1024 (ix2 0 q) = b (ix2 0 (hi q)) :=
  extractStridedSlice_apply ![0, 1024] b slices_S1x2048_S1x1024_0_1024 (ix2 0 q) (ix2 0 (hi q)) (fun a => by
    match a with
    | ⟨0, _⟩ => rfl
    | ⟨1, _⟩ => rfl)

theorem stackW_i (a0 a1 a2 a3 : FVec Ideal S1024x1024 .f32) (k q : Fin 1024) :
    concatenate S1024x4096 1 [⟨S1024x1024, a0⟩, ⟨S1024x1024, a1⟩, ⟨S1024x1024, a2⟩, ⟨S1024x1024, a3⟩]
        concatenates_S1024x1024_S1024x1024_S1024x1024_S1024x1024_S1024x4096_d1 (ix2 k ⟨0 + q.val, by omega⟩) = a0 (ix2 k q) :=
  concatenate_apply_piece (1 : Fin S1024x4096.rank) _ _ (ix2 k ⟨0 + q.val, by omega⟩) 0 (by simp) S1024x1024 a0 rfl rfl 0 rfl
    (ix2 k q) (fun b hb => by match b, hb with | ⟨0, _⟩, _ => rfl | ⟨1, _⟩, hb => exact absurd rfl hb) rfl
theorem stackB_i (a0 a1 a2 a3 : FVec Ideal S1x1024 .f32) (q : Fin 1024) :
    concatenate S1x4096 1 [⟨S1x1024, a0⟩, ⟨S1x1024, a1⟩, ⟨S1x1024, a2⟩, ⟨S1x1024, a3⟩]
        concatenates_S1x1024_S1x1024_S1x1024_S1x1024_S1x4096_d1 (ix2 0 ⟨0 + q.val, by omega⟩) = a0 (ix2 0 q) :=
  concatenate_apply_piece (1 : Fin S1x4096.rank) _ _ (ix2 0 ⟨0 + q.val, by omega⟩) 0 (by simp) S1x1024 a0 rfl rfl 0 rfl
    (ix2 0 q) (fun b hb => by match b, hb with | ⟨0, _⟩, _ => rfl | ⟨1, _⟩, hb => exact absurd rfl hb) rfl
theorem stackW_f (a0 a1 a2 a3 : FVec Ideal S1024x1024 .f32) (k q : Fin 1024) :
    concatenate S1024x4096 1 [⟨S1024x1024, a0⟩, ⟨S1024x1024, a1⟩, ⟨S1024x1024, a2⟩, ⟨S1024x1024, a3⟩]
        concatenates_S1024x1024_S1024x1024_S1024x1024_S1024x1024_S1024x4096_d1 (ix2 k ⟨1024 + q.val, by omega⟩) = a1 (ix2 k q) :=
  concatenate_apply_piece (1 : Fin S1024x4096.rank) _ _ (ix2 k ⟨1024 + q.val, by omega⟩) 1 (by simp) S1024x1024 a1 rfl rfl 1024 rfl
    (ix2 k q) (fun b hb => by match b, hb with | ⟨0, _⟩, _ => rfl | ⟨1, _⟩, hb => exact absurd rfl hb) rfl
theorem stackB_f (a0 a1 a2 a3 : FVec Ideal S1x1024 .f32) (q : Fin 1024) :
    concatenate S1x4096 1 [⟨S1x1024, a0⟩, ⟨S1x1024, a1⟩, ⟨S1x1024, a2⟩, ⟨S1x1024, a3⟩]
        concatenates_S1x1024_S1x1024_S1x1024_S1x1024_S1x4096_d1 (ix2 0 ⟨1024 + q.val, by omega⟩) = a1 (ix2 0 q) :=
  concatenate_apply_piece (1 : Fin S1x4096.rank) _ _ (ix2 0 ⟨1024 + q.val, by omega⟩) 1 (by simp) S1x1024 a1 rfl rfl 1024 rfl
    (ix2 0 q) (fun b hb => by match b, hb with | ⟨0, _⟩, _ => rfl | ⟨1, _⟩, hb => exact absurd rfl hb) rfl
theorem stackW_o (a0 a1 a2 a3 : FVec Ideal S1024x1024 .f32) (k q : Fin 1024) :
    concatenate S1024x4096 1 [⟨S1024x1024, a0⟩, ⟨S1024x1024, a1⟩, ⟨S1024x1024, a2⟩, ⟨S1024x1024, a3⟩]
        concatenates_S1024x1024_S1024x1024_S1024x1024_S1024x1024_S1024x4096_d1 (ix2 k ⟨2048 + q.val, by omega⟩) = a2 (ix2 k q) :=
  concatenate_apply_piece (1 : Fin S1024x4096.rank) _ _ (ix2 k ⟨2048 + q.val, by omega⟩) 2 (by simp) S1024x1024 a2 rfl rfl 2048 rfl
    (ix2 k q) (fun b hb => by match b, hb with | ⟨0, _⟩, _ => rfl | ⟨1, _⟩, hb => exact absurd rfl hb) rfl
theorem stackB_o (a0 a1 a2 a3 : FVec Ideal S1x1024 .f32) (q : Fin 1024) :
    concatenate S1x4096 1 [⟨S1x1024, a0⟩, ⟨S1x1024, a1⟩, ⟨S1x1024, a2⟩, ⟨S1x1024, a3⟩]
        concatenates_S1x1024_S1x1024_S1x1024_S1x1024_S1x4096_d1 (ix2 0 ⟨2048 + q.val, by omega⟩) = a2 (ix2 0 q) :=
  concatenate_apply_piece (1 : Fin S1x4096.rank) _ _ (ix2 0 ⟨2048 + q.val, by omega⟩) 2 (by simp) S1x1024 a2 rfl rfl 2048 rfl
    (ix2 0 q) (fun b hb => by match b, hb with | ⟨0, _⟩, _ => rfl | ⟨1, _⟩, hb => exact absurd rfl hb) rfl
theorem stackW_g (a0 a1 a2 a3 : FVec Ideal S1024x1024 .f32) (k q : Fin 1024) :
    concatenate S1024x4096 1 [⟨S1024x1024, a0⟩, ⟨S1024x1024, a1⟩, ⟨S1024x1024, a2⟩, ⟨S1024x1024, a3⟩]
        concatenates_S1024x1024_S1024x1024_S1024x1024_S1024x1024_S1024x4096_d1 (ix2 k ⟨3072 + q.val, by omega⟩) = a3 (ix2 k q) :=
  concatenate_apply_piece (1 : Fin S1024x4096.rank) _ _ (ix2 k ⟨3072 + q.val, by omega⟩) 3 (by simp) S1024x1024 a3 rfl rfl 3072 rfl
    (ix2 k q) (fun b hb => by match b, hb with | ⟨0, _⟩, _ => rfl | ⟨1, _⟩, hb => exact absurd rfl hb) rfl
theorem stackB_g (a0 a1 a2 a3 : FVec Ideal S1x1024 .f32) (q : Fin 1024) :
    concatenate S1x4096 1 [⟨S1x1024, a0⟩, ⟨S1x1024, a1⟩, ⟨S1x1024, a2⟩, ⟨S1x1024, a3⟩]
        concatenates_S1x1024_S1x1024_S1x1024_S1x1024_S1x4096_d1 (ix2 0 ⟨3072 + q.val, by omega⟩) = a3 (ix2 0 q) :=
  concatenate_apply_piece (1 : Fin S1x4096.rank) _ _ (ix2 0 ⟨3072 + q.val, by omega⟩) 3 (by simp) S1x1024 a3 rfl rfl 3072 rfl
    (ix2 0 q) (fun b hb => by match b, hb with | ⟨0, _⟩, _ => rfl | ⟨1, _⟩, hb => exact absurd rfl hb) rfl

/-! ## The region's input arrays read at a position -/

theorem entX_at (c : Dev nD) (r : Fin 8192) (k : Fin 1024) : entX m c (ix2 r k) = argX m c (ix2 r k) := by
  rw [entX_eq]; rfl
theorem entH_at (c : Dev nD) (r : Fin 8192) (k : Fin 1024) : entH m c (ix2 r k) = argS m c (ix2 r (lo k)) := by
  rw [entH_eq]
  exact extractStridedSlice_apply ![0, 0] (argS m c) slices_S8192x2048_S8192x1024_0_0 (ix2 r k) (ix2 r (lo k)) (fun a => by
    match a with
    | ⟨0, _⟩ => show r.val = 0 + r.val; omega
    | ⟨1, _⟩ => show k.val = 0 + k.val; omega)
theorem entC_at (c : Dev nD) (r : Fin 8192) (q : Fin 1024) : entC m c (ix2 r q) = argS m c (ix2 r (hi q)) := by
  rw [entC_eq]
  exact extractStridedSlice_apply ![0, 1024] (argS m c) slices_S8192x2048_S8192x1024_0_1024 (ix2 r q) (ix2 r (hi q)) (fun a => by
    match a with
    | ⟨0, _⟩ => show r.val = 0 + r.val; omega
    | ⟨1, _⟩ => rfl)
theorem entWx_i (c : Dev nD) (k q : Fin 1024) : entWx m c (ix2 k ⟨0 + q.val, by omega⟩) = argWi m c (ix2 (lo k) q) := by
  rw [entWx_eq]
  exact (stackW_i _ _ _ _ k q).trans (rowsLo_at _ k q)
theorem entWh_i (c : Dev nD) (k q : Fin 1024) : entWh m c (ix2 k ⟨0 + q.val, by omega⟩) = argWi m c (ix2 (hi k) q) := by
  rw [entWh_eq]
  exact (stackW_i _ _ _ _ k q).trans (rowsHi_at _ k q)
theorem entB_i (c : Dev nD) (q : Fin 1024) :
    entB m c (ix2 0 ⟨0 + q.val, by omega⟩) = argBi m c (ix2 0 (lo q)) + argBi m c (ix2 0 (hi q)) := by
  rw [entB_eq, stackB_i, addf_apply, biasLo_at, biasHi_at]
theorem entWx_f (c : Dev nD) (k q : Fin 1024) : entWx m c (ix2 k ⟨1024 + q.val, by omega⟩) = argWf m c (ix2 (lo k) q) := by
  rw [entWx_eq]
  exact (stackW_f _ _ _ _ k q).trans (rowsLo_at _ k q)
theorem entWh_f (c : Dev nD) (k q : Fin 1024) : entWh m c (ix2 k ⟨1024 + q.val, by omega⟩) = argWf m c (ix2 (hi k) q) := by
  rw [entWh_eq]
  exact (stackW_f _ _ _ _ k q).trans (rowsHi_at _ k q)
theorem entB_f (c : Dev nD) (q : Fin 1024) :
    entB m c (ix2 0 ⟨1024 + q.val, by omega⟩) = argBf m c (ix2 0 (lo q)) + argBf m c (ix2 0 (hi q)) := by
  rw [entB_eq, stackB_f, addf_apply, biasLo_at, biasHi_at]
theorem entWx_o (c : Dev nD) (k q : Fin 1024) : entWx m c (ix2 k ⟨2048 + q.val, by omega⟩) = argWo m c (ix2 (lo k) q) := by
  rw [entWx_eq]
  exact (stackW_o _ _ _ _ k q).trans (rowsLo_at _ k q)
theorem entWh_o (c : Dev nD) (k q : Fin 1024) : entWh m c (ix2 k ⟨2048 + q.val, by omega⟩) = argWo m c (ix2 (hi k) q) := by
  rw [entWh_eq]
  exact (stackW_o _ _ _ _ k q).trans (rowsHi_at _ k q)
theorem entB_o (c : Dev nD) (q : Fin 1024) :
    entB m c (ix2 0 ⟨2048 + q.val, by omega⟩) = argBo m c (ix2 0 (lo q)) + argBo m c (ix2 0 (hi q)) := by
  rw [entB_eq, stackB_o, addf_apply, biasLo_at, biasHi_at]
theorem entWx_g (c : Dev nD) (k q : Fin 1024) : entWx m c (ix2 k ⟨3072 + q.val, by omega⟩) = argWg m c (ix2 (lo k) q) := by
  rw [entWx_eq]
  exact (stackW_g _ _ _ _ k q).trans (rowsLo_at _ k q)
theorem entWh_g (c : Dev nD) (k q : Fin 1024) : entWh m c (ix2 k ⟨3072 + q.val, by omega⟩) = argWg m c (ix2 (hi k) q) := by
  rw [entWh_eq]
  exact (stackW_g _ _ _ _ k q).trans (rowsHi_at _ k q)
theorem entB_g (c : Dev nD) (q : Fin 1024) :
    entB m c (ix2 0 ⟨3072 + q.val, by omega⟩) = argBg m c (ix2 0 (lo q)) + argBg m c (ix2 0 (hi q)) := by
  rw [entB_eq, stackB_g, addf_apply, biasLo_at, biasHi_at]

end Cert.KernelIdeal.Cell

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.IdealCellValue.lean ====
/-
  What the LSTM cell's body computes on one batch tile, position by position, over the extended reals.

  On a tile the body forms one 256 × 4096 array of pre-activations: entry (p, c) is row `p` of the tile's `x` against column
  `c` of the stacked `x`-weights, plus row `p` of the tile's `h` against column `c` of the stacked `h`-weights, plus
  entry `c` of the stacked bias.  Columns 0 … 1023 belong to the input gate, 1024 … 2047 to the forget gate, 2048 … 3071
  to the output gate and 3072 … 4095 to the candidate.  If column `o + j` of the stacked weights is column `j` of one
  gate's own weights, and entry `o + j` of the stacked bias is the sum of that gate's two bias halves at `j`, then the
  pre-activation at (p, o + j) is the specification's `gate` for that gate at the tile's row — the same four terms,
  grouped differently.  The two stored halves then follow by applying the same functions to equal arguments.
-/
import proofs.«124655_j50148038148717_1_alg».proof.Proof.IdealBody
import proofs.«124655_j50148038148717_1_alg».proof.Proof.LstmSpec
import proofs.«124655_j50148038148717_1_alg».proof.Proof.LibContraction
import Idealize.ShloMosaic.PureOps.Ideal.Laws
import Idealize.ShloMosaic.Lib.Pipeline.Value
import Idealize.ShloMosaic.Lib.ValueIdx

set_option maxRecDepth 16384

noncomputable section

open scoped BigOperators

namespace Cert.KernelIdeal.Cell

open Idealize.ShloMosaic Idealize.ShloMosaic.TcCoe Idealize.SL.Sem
open Idealize.ShloMosaic.ValueIdx Cert.LstmSpec Cert.Lib.Contraction
open Cert.KernelIdeal.Gen

/-- The body's contraction: 256 × 1024 against 1024 × 4096 over the shared axis of extent 1024. -/
abbrev rowsByCols := dot_S256x1024_S1024x4096_S256x4096_1_0_0_1_n_n

/-- A product into a zero accumulator, at row `p` and column `c`, is the sum over the shared axis. -/
theorem matmul_at (A : FVec Ideal S256x1024 .bf16) (W : FVec Ideal S1024x4096 .bf16) (p : Fin 256) (c : Fin 4096) :
    matmul rowsByCols none A W (constant S256x4096 .f32 0x00000000#32) (ix2 p c)
      = ∑ k : Fin 1024, A (ix2 p k) * W (ix2 k c) := by
  show FloatOps.matmul rowsByCols none A W (constant S256x4096 .f32 0x00000000#32) (ix2 p c) = _
  rw [Ideal.matmul_constant_zero_apply, sum_contr rowsByCols (cl := (1 : Fin S256x1024.rank)) rfl 1024 rfl]
  refine Finset.sum_congr rfl fun k _ => ?_
  have el : rowsByCols.lhsIdx (ix2 p c) ((contrFin rowsByCols (cl := (1 : Fin S256x1024.rank)) rfl 1024 rfl).symm k) = ix2 p k :=
    funext fun a => Fin.ext (by
      match a with
      | ⟨0, _⟩ => exact lhs_free rowsByCols (nl := (0 : Fin S256x1024.rank)) rfl rfl (ix2 p c) _ (by decide)
      | ⟨1, _⟩ => exact lhs_contracted rowsByCols (cl := (1 : Fin S256x1024.rank)) rfl 1024 rfl (ix2 p c) k)
  have er : rowsByCols.rhsIdx (ix2 p c) ((contrFin rowsByCols (cl := (1 : Fin S256x1024.rank)) rfl 1024 rfl).symm k) = ix2 k c :=
    funext fun a => Fin.ext (by
      match a with
      | ⟨0, _⟩ => exact rhs_contracted rowsByCols (cl := (1 : Fin S256x1024.rank)) (cr := (0 : Fin S1024x4096.rank)) rfl rfl 1024 rfl (ix2 p c) k
      | ⟨1, _⟩ => exact rhs_free rowsByCols (nl := (0 : Fin S256x1024.rank)) (nr := (1 : Fin S1024x4096.rank)) rfl rfl rfl rfl (ix2 p c) _ (by decide))
  rw [el, er]

/-- The stacked pre-activation at row `p`, column `c`. -/
theorem preact_at (X H : Vec Ideal S256x1024 .bf16) (WX WH : Vec Ideal S1024x4096 .bf16) (B : Vec Ideal S1x4096 .f32)
    (p : Fin 256) (c : Fin 4096) :
    k0_pay1 X H WX WH B (ix2 p c)
      = ((∑ k : Fin 1024, X (ix2 p k) * WX (ix2 k c)) + (∑ k : Fin 1024, H (ix2 p k) * WH (ix2 k c))) + B (ix2 0 c) := by
  unfold k0_pay1
  simp only [shapeCast_self]
  rw [addf_apply, addf_apply, matmul_at, matmul_at,
    broadcastTo_apply B broadcasts_S1x4096_S256x4096 (ix2 p c) (ix2 0 c) (fun a => by
      match a with
      | ⟨0, _⟩ => show 0 = if (1 : Nat) = 1 then 0 else _; rw [if_pos rfl]
      | ⟨1, _⟩ => show c.val = if (4096 : Nat) = 1 then 0 else c.val; rw [if_neg (by decide)])]

/-! ## A tile of the arguments -/

/-- The six blocks the body reads at a tile whose first batch row is `row0`, in terms of the ten arguments: the tile's
    rows of `x`, of the hidden half and of the cell half of the state; the stacked weights, gate by gate; the stacked
    bias, each entry the sum of a gate's two bias halves. -/
structure TileOf (x : Acts) (s : State) (wi wf wo wg : Weights) (bi bf bo bg : Bias) (row0 : Nat) (hrow : row0 + 256 ≤ 8192)
    (X H : Vec Ideal S256x1024 .bf16) (C : Vec Ideal S256x1024 .f32) (WX WH : Vec Ideal S1024x4096 .bf16)
    (B : Vec Ideal S1x4096 .f32) : Prop where
  rowsX : ∀ (p : Fin 256) (k : Fin 1024), X (ix2 p k) = x (ix2 ⟨row0 + p.val, by omega⟩ k)
  rowsH : ∀ (p : Fin 256) (k : Fin 1024), H (ix2 p k) = s (ix2 ⟨row0 + p.val, by omega⟩ (lo k))
  rowsC : ∀ (p : Fin 256) (q : Fin 1024), C (ix2 p q) = s (ix2 ⟨row0 + p.val, by omega⟩ (hi q))
  colsXi : ∀ (k q : Fin 1024), WX (ix2 k ⟨0 + q.val, by omega⟩) = wi (ix2 (lo k) q)
  colsHi : ∀ (k q : Fin 1024), WH (ix2 k ⟨0 + q.val, by omega⟩) = wi (ix2 (hi k) q)
  biasi : ∀ (q : Fin 1024), B (ix2 0 ⟨0 + q.val, by omega⟩) = bi (ix2 0 (lo q)) + bi (ix2 0 (hi q))
  colsXf : ∀ (k q : Fin 1024), WX (ix2 k ⟨1024 + q.val, by omega⟩) = wf (ix2 (lo k) q)
  colsHf : ∀ (k q : Fin 1024), WH (ix2 k ⟨1024 + q.val, by omega⟩) = wf (ix2 (hi k) q)
  biasf : ∀ (q : Fin 1024), B (ix2 0 ⟨1024 + q.val, by omega⟩) = bf (ix2 0 (lo q)) + bf (ix2 0 (hi q))
  colsXo : ∀ (k q : Fin 1024), WX (ix2 k ⟨2048 + q.val, by omega⟩) = wo (ix2 (lo k) q)
  colsHo : ∀ (k q : Fin 1024), WH (ix2 k ⟨2048 + q.val, by omega⟩) = wo (ix2 (hi k) q)
  biaso : ∀ (q : Fin 1024), B (ix2 0 ⟨2048 + q.val, by omega⟩) = bo (ix2 0 (lo q)) + bo (ix2 0 (hi q))
  colsXg : ∀ (k q : Fin 1024), WX (ix2 k ⟨3072 + q.val, by omega⟩) = wg (ix2 (lo k) q)
  colsHg : ∀ (k q : Fin 1024), WH (ix2 k ⟨3072 + q.val, by omega⟩) = wg (ix2 (hi k) q)
  biasg : ∀ (q : Fin 1024), B (ix2 0 ⟨3072 + q.val, by omega⟩) = bg (ix2 0 (lo q)) + bg (ix2 0 (hi q))

/-- One gate's columns of the stacked pre-activation are that gate's pre-activation at the tile's rows. -/
theorem gate_of_columns (x : Acts) (s : State) (w : Weights) (b : Bias) (row0 : Nat) (hrow : row0 + 256 ≤ 8192)
    (X H : Vec Ideal S256x1024 .bf16) (WX WH : Vec Ideal S1024x4096 .bf16) (B : Vec Ideal S1x4096 .f32)
    (o : Nat) (ho : o + 1024 ≤ 4096)
    (hX : ∀ (p : Fin 256) (k : Fin 1024), X (ix2 p k) = x (ix2 ⟨row0 + p.val, by omega⟩ k))
    (hH : ∀ (p : Fin 256) (k : Fin 1024), H (ix2 p k) = s (ix2 ⟨row0 + p.val, by omega⟩ (lo k)))
    (hWX : ∀ (k q : Fin 1024), WX (ix2 k ⟨o + q.val, by omega⟩) = w (ix2 (lo k) q))
    (hWH : ∀ (k q : Fin 1024), WH (ix2 k ⟨o + q.val, by omega⟩) = w (ix2 (hi k) q))
    (hB : ∀ (q : Fin 1024), B (ix2 0 ⟨o + q.val, by omega⟩) = b (ix2 0 (lo q)) + b (ix2 0 (hi q)))
    (p : Fin 256) (q : Fin 1024) :
    k0_pay1 X H WX WH B (ix2 p ⟨o + q.val, by omega⟩) = gate x s w b ⟨row0 + p.val, by omega⟩ q := by
  rw [preact_at, ← gate_regrouped x s w b ⟨row0 + p.val, by omega⟩ q]
  simp only [hX, hH, hWX, hWH, hB]

/-- A gate's column range cut out of the stacked pre-activation, read at a position. -/
theorem columns_at (Z : FVec Ideal S256x4096 .f32) (o : Nat) (ho : o + 1024 ≤ 4096) (hs : S256x4096.Slices ![0, o] S256x1024)
    (p : Fin 256) (q : Fin 1024) :
    extractStridedSlice S256x1024 ![0, o] Z hs (ix2 p q) = Z (ix2 p ⟨o + q.val, by omega⟩) :=
  extractStridedSlice_apply ![0, o] Z hs (ix2 p q) (ix2 p ⟨o + q.val, by omega⟩) (fun a => by
    match a with
    | ⟨0, _⟩ => show p.val = 0 + p.val; omega
    | ⟨1, _⟩ => rfl)

section Halves

variable {x : Acts} {s : State} {wi wf wo wg : Weights} {bi bf bo bg : Bias} {row0 : Nat} {hrow : row0 + 256 ≤ 8192}
  {X H : Vec Ideal S256x1024 .bf16} {C : Vec Ideal S256x1024 .f32} {WX WH : Vec Ideal S1024x4096 .bf16}
  {B : Vec Ideal S1x4096 .f32}

/-- The value stored into the right half is the specification's new cell state at the tile's rows. -/
theorem cell_of_tile (T : TileOf x s wi wf wo wg bi bf bo bg row0 hrow X H C WX WH B) (p : Fin 256) (q : Fin 1024) :
    k0_pay2 X H WX WH B C (ix2 p q) = cellNew x s wi wf wg bi bf bg ⟨row0 + p.val, by omega⟩ q := by
  unfold k0_pay2
  simp only [shapeCast_self]
  rw [addf_apply, mulf_apply, mulf_apply]
  show Ideal.logistic (extractStridedSlice S256x1024 ![0, 1024] (k0_pay1 X H WX WH B) slices_S256x4096_o0_1024_S256x1024 (ix2 p q)) * C (ix2 p q)
      + Ideal.logistic (extractStridedSlice S256x1024 ![0, 0] (k0_pay1 X H WX WH B) slices_S256x4096_o0_0_S256x1024 (ix2 p q))
        * Ideal.tanh (extractStridedSlice S256x1024 ![0, 3072] (k0_pay1 X H WX WH B) slices_S256x4096_o0_3072_S256x1024 (ix2 p q)) = _
  rw [columns_at _ 1024 (by omega), columns_at _ 0 (by omega), columns_at _ 3072 (by omega),
    gate_of_columns x s wf bf row0 hrow X H WX WH B 1024 (by omega) T.rowsX T.rowsH T.colsXf T.colsHf T.biasf,
    gate_of_columns x s wi bi row0 hrow X H WX WH B 0 (by omega) T.rowsX T.rowsH T.colsXi T.colsHi T.biasi,
    gate_of_columns x s wg bg row0 hrow X H WX WH B 3072 (by omega) T.rowsX T.rowsH T.colsXg T.colsHg T.biasg,
    T.rowsC]
  rfl

/-- The value stored into the left half is the specification's new hidden state at the tile's rows. -/
theorem hidden_of_tile (T : TileOf x s wi wf wo wg bi bf bo bg row0 hrow X H C WX WH B) (p : Fin 256) (q : Fin 1024) :
    k0_pay3 X H WX WH B C (ix2 p q) = hiddenNew x s wi wf wo wg bi bf bo bg ⟨row0 + p.val, by omega⟩ q := by
  unfold k0_pay3
  rw [mulf_apply]
  show Ideal.logistic (extractStridedSlice S256x1024 ![0, 2048] (k0_pay1 X H WX WH B) slices_S256x4096_o0_2048_S256x1024 (ix2 p q))
      * Ideal.tanh (k0_pay2 X H WX WH B C (ix2 p q)) = _
  rw [columns_at _ 2048 (by omega),
    gate_of_columns x s wo bo row0 hrow X H WX WH B 2048 (by omega) T.rowsX T.rowsH T.colsXo T.colsHo T.biaso,
    cell_of_tile T]
  rfl

/-! ## The output block -/

theorem zeros2 : (![0, 0] : Fin 2 → Nat) = fun _ => 0 := funext fun a => by fin_cases a <;> rfl

/-- Position (p, q) of the right half is position (p, 1024 + q) of the block; -/
theorem cellState_emb (p : Fin 256) (q : Fin 1024) : rCellState.emb (ix2 p q) = ix2 p (hi q) :=
  funext fun a => Fin.ext (by
    match a with
    | ⟨0, _⟩ => show 0 + 1 * p.val = p.val; omega
    | ⟨1, _⟩ => show 1024 + 1 * q.val = 1024 + q.val; omega)

/-- of the left half, position (p, q). -/
theorem hidden_emb (p : Fin 256) (q : Fin 1024) : rHidden.emb (ix2 p q) = ix2 p (lo q) :=
  funext fun a => Fin.ext (by
    match a with
    | ⟨0, _⟩ => show 0 + 1 * p.val = p.val; omega
    | ⟨1, _⟩ => show 0 + 1 * q.val = q.val; omega)

/-- The output block after the body is the specification's result on the tile's rows. -/
theorem cellOut_of_tile (T : TileOf x s wi wf wo wg bi bf bo bg row0 hrow X H C WX WH B) (y : S256x2048.Idx) :
    cellOut X H C WX WH B y
      = out x s wi wf wo wg bi bf bo bg (ix2 ⟨row0 + (y 0).val, by have := idx2_lt0 y; omega⟩ ⟨(y 1).val, idx2_lt1 y⟩) := by
  unfold cellOut
  simp only [View.ld_unit_zero (S := S256x1024) zeros2, View.ld_unit_zero (S := S1024x4096) zeros2,
    View.ld_unit_zero (S := S1x4096) zeros2]
  refine View.canon_apply_of_pieces (Val := Elt Ideal) (S := S256x2048) (e := .f32)
    (fun y : S256x2048.Idx => out x s wi wf wo wg bi bf bo bg (ix2 ⟨row0 + (y 0).val, by have := idx2_lt0 y; omega⟩ ⟨(y 1).val, idx2_lt1 y⟩))
    _ ?_ y (halves_cover _ _ y)
  intro pc hpc z
  simp only [List.mem_cons, List.mem_singleton, List.not_mem_nil, or_false] at hpc
  rcases hpc with rfl | rfl
  · obtain ⟨p, q, rfl⟩ : ∃ (p : Fin 256) (q : Fin 1024), z = ix2 p q := ⟨z 0, z 1, eq_ix2 z⟩
    show k0_pay2 X H WX WH B C (ix2 p q) = _
    rw [cell_of_tile T, cellState_emb]
    exact (out_hi x s wi wf wo wg bi bf bo bg ⟨row0 + p.val, by omega⟩ q).symm
  · obtain ⟨p, q, rfl⟩ : ∃ (p : Fin 256) (q : Fin 1024), z = ix2 p q := ⟨z 0, z 1, eq_ix2 z⟩
    show k0_pay3 X H WX WH B C (ix2 p q) = _
    rw [hidden_of_tile T, hidden_emb]
    exact (out_lo x s wi wf wo wg bi bf bo bg ⟨row0 + p.val, by omega⟩ q).symm

end Halves

end Cert.KernelIdeal.Cell

end
-- ==== Proof.IdealValue.lean ====
/-
  The LSTM cell's kernel program computes the specification.

  Tile `t` of the region reads rows 256·t … 256·t + 255 of `x`, of the hidden half and of the cell half of the state, and
  the whole stacked weights and bias; so the block it writes back is rows 256·t … 256·t + 255 of the specification's
  result.  The 32 tiles' row ranges partition the 8192 rows, so after the run the result array holds the specification's
  result at every position.
-/
import proofs.«124655_j50148038148717_1_alg».proof.Proof.IdealFrame
import proofs.«124655_j50148038148717_1_alg».proof.Proof.IdealOperands
import proofs.«124655_j50148038148717_1_alg».proof.Proof.IdealCellValue

set_option maxRecDepth 16384

noncomputable section

namespace Cert.KernelIdeal.Cell

open Idealize.ShloMosaic Idealize.ShloMosaic.TcCoe Idealize.SL.Sem
open Idealize.ShloMosaic.ValueIdx Cert.LstmSpec
open Idealize.ShloMosaic.Pipeline (Dat Cfg Window)
open Cert.KernelIdeal.Gen

variable (m : (ℓ : Loc nD τ sig) → Buf (Elt Ideal) ℓ) (ρ : Dev nD → PrngReg)

/-! ## Which block each window reads at a tile -/

/-- The three batch-tiled inputs and the output take block `t` along the rows; the weights and the bias always their
    one block. Decided over the 32 tiles. -/
theorem tile_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem tile_lt (t : Fin cfg0.N) : t.val < 32 := lt_of_lt_of_eq t.isLt N_0

/-! ## The input blocks at a tile, read at a position -/

theorem blk_x (c : Dev nD) (t : Fin cfg0.N) (p : Fin 256) (k : Fin 1024) :
    (iblk m c 0 t : Vec Ideal S256x1024 .bf16) (ix2 p k)
      = entX m c (ix2 ⟨256 * t.val + p.val, by have := tile_lt t; omega⟩ k) := by
  obtain ⟨e0, e1, -⟩ := tile_index t
  show V m c main_v25 (((cfg0.win 0).blk t).view.emb (ix2 p k)) = V m c main_v25 _
  refine congrArg _ (funext fun a => Fin.ext ?_)
  match a with
  | ⟨0, _⟩ => show win0_0.index t (0 : Fin 2) * 256 + 1 * p.val = 256 * t.val + p.val; omega
  | ⟨1, _⟩ => show win0_0.index t (1 : Fin 2) * 1024 + 1 * k.val = k.val; omega

theorem blk_h (c : Dev nD) (t : Fin cfg0.N) (p : Fin 256) (k : Fin 1024) :
    (iblk m c 1 t : Vec Ideal S256x1024 .bf16) (ix2 p k)
      = entH m c (ix2 ⟨256 * t.val + p.val, by have := tile_lt t; omega⟩ k) := by
  obtain ⟨-, -, e0, e1, -⟩ := tile_index t
  show V m c main_v26 (((cfg0.win 1).blk t).view.emb (ix2 p k)) = V m c main_v26 _
  refine congrArg _ (funext fun a => Fin.ext ?_)
  match a with
  | ⟨0, _⟩ => show win0_1.index t (0 : Fin 2) * 256 + 1 * p.val = 256 * t.val + p.val; omega
  | ⟨1, _⟩ => show win0_1.index t (1 : Fin 2) * 1024 + 1 * k.val = k.val; omega

theorem blk_c (c : Dev nD) (t : Fin cfg0.N) (p : Fin 256) (q : Fin 1024) :
    (iblk m c 2 t : Vec Ideal S256x1024 .f32) (ix2 p q)
      = entC m c (ix2 ⟨256 * t.val + p.val, by have := tile_lt t; omega⟩ q) := by
  obtain ⟨-, -, -, -, e0, e1, -⟩ := tile_index t
  show V m c main_v1 (((cfg0.win 2).blk t).view.emb (ix2 p q)) = V m c main_v1 _
  refine congrArg _ (funext fun a => Fin.ext ?_)
  match a with
  | ⟨0, _⟩ => show win0_2.index t (0 : Fin 2) * 256 + 1 * p.val = 256 * t.val + p.val; omega
  | ⟨1, _⟩ => show win0_2.index t (1 : Fin 2) * 1024 + 1 * q.val = q.val; omega

theorem blk_wx (c : Dev nD) (t : Fin cfg0.N) (k : Fin 1024) (j : Fin 4096) :
    (iblk m c 3 t : Vec Ideal S1024x4096 .bf16) (ix2 k j) = entWx m c (ix2 k j) := by
  obtain ⟨-, -, -, -, -, -, e0, e1, -⟩ := tile_index t
  show V m c main_v27 (((cfg0.win 3).blk t).view.emb (ix2 k j)) = V m c main_v27 _
  refine congrArg _ (funext fun a => Fin.ext ?_)
  match a with
  | ⟨0, _⟩ => show win0_3.index t (0 : Fin 2) * 1024 + 1 * k.val = k.val; omega
  | ⟨1, _⟩ => show win0_3.index t (1 : Fin 2) * 4096 + 1 * j.val = j.val; omega

theorem blk_wh (c : Dev nD) (t : Fin cfg0.N) (k : Fin 1024) (j : Fin 4096) :
    (iblk m c 4 t : Vec Ideal S1024x4096 .bf16) (ix2 k j) = entWh m c (ix2 k j) := by
  obtain ⟨-, -, -, -, -, -, -, -, e0, e1, -⟩ := tile_index t
  show V m c main_v28 (((cfg0.win 4).blk t).view.emb (ix2 k j)) = V m c main_v28 _
  refine congrArg _ (funext fun a => Fin.ext ?_)
  match a with
  | ⟨0, _⟩ => show win0_4.index t (0 : Fin 2) * 1024 + 1 * k.val = k.val; omega
  | ⟨1, _⟩ => show win0_4.index t (1 : Fin 2) * 4096 + 1 * j.val = j.val; omega

theorem blk_b (c : Dev nD) (t : Fin cfg0.N) (j : Fin 4096) :
    (iblk m c 5 t : Vec Ideal S1x4096 .f32) (ix2 0 j) = entB m c (ix2 0 j) := by
  obtain ⟨-, -, -, -, -, -, -, -, -, -, e0, e1, -⟩ := tile_index t
  show V m c main_v24 (((cfg0.win 5).blk t).view.emb (ix2 0 j)) = V m c main_v24 _
  refine congrArg _ (funext fun a => Fin.ext ?_)
  match a with
  | ⟨0, _⟩ => show win0_5.index t (0 : Fin 2) * 1 + 1 * 0 = 0; omega
  | ⟨1, _⟩ => show win0_5.index t (1 : Fin 2) * 4096 + 1 * j.val = j.val; omega

/-- At tile `t` the body's six blocks are a tile of the arguments starting at row 256·t. -/
theorem tile (c : Dev nD) (t : Fin cfg0.N) :
    TileOf (argX m c) (argS m c) (argWi m c) (argWf m c) (argWo m c) (argWg m c) (argBi m c) (argBf m c) (argBo m c) (argBg m c) (256 * t.val) (by have := tile_lt t; omega)
      (iblk m c 0 t) (iblk m c 1 t) (iblk m c 2 t) (iblk m c 3 t) (iblk m c 4 t) (iblk m c 5 t) where
  rowsX p k := (blk_x m c t p k).trans (entX_at m c _ k)
  rowsH p k := (blk_h m c t p k).trans (entH_at m c _ k)
  rowsC p q := (blk_c m c t p q).trans (entC_at m c _ q)
  colsXi k q := (blk_wx m c t k _).trans (entWx_i m c k q)
  colsHi k q := (blk_wh m c t k _).trans (entWh_i m c k q)
  biasi q := (blk_b m c t _).trans (entB_i m c q)
  colsXf k q := (blk_wx m c t k _).trans (entWx_f m c k q)
  colsHf k q := (blk_wh m c t k _).trans (entWh_f m c k q)
  biasf q := (blk_b m c t _).trans (entB_f m c q)
  colsXo k q := (blk_wx m c t k _).trans (entWx_o m c k q)
  colsHo k q := (blk_wh m c t k _).trans (entWh_o m c k q)
  biaso q := (blk_b m c t _).trans (entB_o m c q)
  colsXg k q := (blk_wx m c t k _).trans (entWx_g m c k q)
  colsHg k q := (blk_wh m c t k _).trans (entWh_g m c k q)
  biasg q := (blk_b m c t _).trans (entB_g m c q)

/-! ## What a tile writes back, the cover, and the array after the run -/

/-- Tile `t` writes back block `t` of the specification's result. -/
theorem flushed_eq (c : Dev nD) (t : Fin cfg0.N) :
    (dats m 0 c).flushed 6 t = ((cfg0.win 6).blk t).view.read (Elt Ideal) (out (argX m c) (argS m c) (argWi m c) (argWf m c) (argWo m c) (argWg m c) (argBi m c) (argBf m c) (argBo m c) (argBg m c)) := by
  obtain ⟨-, -, -, -, -, -, -, -, -, -, -, -, e0, e1⟩ := tile_index t
  show (cfg0.win 6).cut (grid0.coords t) ((dats m 0 c).after 6 t) = _
  rw [after_6]
  funext j
  show cellOut (iblk m c 0 t) (iblk m c 1 t) (iblk m c 2 t) (iblk m c 3 t) (iblk m c 4 t) (iblk m c 5 t) j
      = out (argX m c) (argS m c) (argWi m c) (argWf m c) (argWo m c) (argWg m c) (argBi m c) (argBf m c) (argBo m c) (argBg m c) (((cfg0.win 6).blk t).view.emb j)
  rw [cellOut_of_tile (tile m c t) j]
  refine congrArg _ (funext fun a => Fin.ext ?_)
  match a with
  | ⟨0, _⟩ => show 256 * t.val + (j 0).val = win0_6.index t (0 : Fin 2) * 256 + 1 * (j 0).val; omega
  | ⟨1, _⟩ => show (j 1).val = win0_6.index t (1 : Fin 2) * 2048 + 1 * (j 1).val; omega

/-- A position of the result lies in tile `t`'s block iff each coordinate is in the block's range. -/
theorem mem_tile (t : Fin cfg0.N) (i : S8192x2048.Idx) :
    i ∈ ((cfg0.win 6).blk t).view.set ↔ ∀ a : Fin 2, win0_6.index t a * S256x2048.size a ≤ (i a).val
      ∧ (i a).val < win0_6.index t a * S256x2048.size a + S256x2048.size a := by
  show i ∈ ((View.whole main_v29).slice (win0_6.rect t)).set ↔ _
  rw [View.set_slice_whole, Rect.mem_set_unit]
  exact Iff.rfl

/-- Every position of the result lies in the block of the tile its row falls in. -/
theorem tiles_cover (i : S8192x2048.Idx) :
    ∃ t : Fin cfg0.N, (cfg0.win 6).flush t = true ∧ i ∈ ((cfg0.win 6).blk t).view.set := by
  have h0 : (i 0).val < 8192 := (i 0).isLt
  have h1 : (i 1).val < 2048 := (i 1).isLt
  have hN : cfg0.N = 32 := N_0
  obtain ⟨t, ht⟩ : ∃ t : Fin cfg0.N, t.val = (i 0).val / 256 := ⟨⟨(i 0).val / 256, by rw [hN]; omega⟩, rfl⟩
  obtain ⟨-, -, -, -, -, -, -, -, -, -, -, -, e0, e1⟩ := tile_index t
  refine ⟨t, flush0_6 t, (mem_tile t i).mpr fun a => ?_⟩
  match a with
  | ⟨0, _⟩ =>
    show win0_6.index t (0 : Fin 2) * 256 ≤ (i 0).val ∧ (i 0).val < win0_6.index t (0 : Fin 2) * 256 + 256
    rw [e0, ht]; omega
  | ⟨1, _⟩ =>
    show win0_6.index t (1 : Fin 2) * 2048 ≤ (i 1).val ∧ (i 1).val < win0_6.index t (1 : Fin 2) * 2048 + 2048
    rw [e1]; omega

/-- After the run the result array holds the specification's result. -/
theorem final (c : Dev nD) : (dats m 0 c).arrAt 6 cfg0.N = out (argX m c) (argS m c) (argWi m c) (argWf m c) (argWo m c) (argWg m c) (argBi m c) (argBf m c) (argBo m c) (argBg m c) :=
  (dats m 0 c).arrAt_eq_of_cover 6 (out (argX m c) (argS m c) (argWi m c) (argWf m c) (argWo m c) (argWg m c) (argBi m c) (argBf m c) (argBo m c) (argBg m c)) (fun t _ => flushed_eq m c t) tiles_cover

/-- The specification's result on core `c`, as the contents of the result buffer. -/
abbrev result (c : Dev nD) : Buf (Elt Ideal) ((c.tc : Thread nD τ).loc main_v29) := out (argX m c) (argS m c) (argWi m c) (argWf m c) (argWo m c) (argWg m c) (argBi m c) (argBf m c) (argBo m c) (argBg m c)

/-- The program terminates without a fault, with the result at the specification's and the ten arguments as launched. -/
theorem run : θ_run defs (onTc (τ := τ) (main (F := Ideal))) ⟨m, fun _ => 0, ρ⟩ (fun r => ∀ c : Dev nD,
      r.2.mem ((c.tc : Thread nD τ).loc main_v29) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 6).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) (run_main m ρ)

end Cert.KernelIdeal.Cell

end
-- ==== Proof.RefValue.lean ====
/-
  The reference LSTM cell, read index by index, is the specification.

  The reference computes each of its four gates by the same chain of array operations — `x` times the upper rows of the
  gate's weights, plus the first bias half broadcast down the rows, plus the hidden half of the state times the lower
  rows, plus the second bias half — at four different weight and bias arguments; read at row `r`, unit `j`, that chain is
  the specification's `gate`.  It spells the logistic function out as `1 / (1 + exp (−z))`, which over the extended
  reals is the logistic function by definition (the word `0x3F800000` is the number one).  The result joins the new
  hidden state and the new cell state side by side, so a column below 1024 reads the first and a column from 1024 on the
  second.
-/
import proofs.«124655_j50148038148717_1_alg».proof.Proof.Gen.ReferenceIdeal.Read
import proofs.«124655_j50148038148717_1_alg».proof.Proof.LstmSpec
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.LstmSpec

/-! ## Where each operand of a gate is read -/

theorem at_x (r : Fin 8192) (j k : Fin 1024) : lidx_main_v3 (ix2 r j) k = ix2 r k :=
  funext fun a => Fin.ext (by match a with | ⟨0, _⟩ => rfl | ⟨1, _⟩ => rfl)
theorem at_wx (r : Fin 8192) (j k : Fin 1024) : idx_main_v2 (ridx_main_v3 (ix2 r j) k) = ix2 (lo k) j :=
  funext fun a => Fin.ext (by match a with | ⟨0, _⟩ => rfl | ⟨1, _⟩ => rfl)
theorem at_b1 (r : Fin 8192) (j : Fin 1024) : idx_main_v4 (idx_main_v5 (ix2 r j)) = ix2 0 (lo j) :=
  funext fun a => Fin.ext (by match a with | ⟨0, _⟩ => rfl | ⟨1, _⟩ => rfl)
theorem at_h (r : Fin 8192) (j k : Fin 1024) : idx_main_v0 (lidx_main_v8 (ix2 r j) k) = ix2 r (lo k) :=
  funext fun a => Fin.ext (by match a with | ⟨0, _⟩ => rfl | ⟨1, _⟩ => rfl)
theorem at_wh (r : Fin 8192) (j k : Fin 1024) : idx_main_v7 (ridx_main_v8 (ix2 r j) k) = ix2 (hi k) j :=
  funext fun a => Fin.ext (by match a with | ⟨0, _⟩ => rfl | ⟨1, _⟩ => rfl)
theorem at_b2 (r : Fin 8192) (j : Fin 1024) : idx_main_v10 (idx_main_v11 (ix2 r j)) = ix2 0 (hi j) :=
  funext fun a => Fin.ext (by match a with | ⟨0, _⟩ => rfl | ⟨1, _⟩ => rfl)
theorem at_c (r : Fin 8192) (j : Fin 1024) : idx_main_v1 (ix2 r j) = ix2 r (hi j) :=
  funext fun a => Fin.ext (by match a with | ⟨0, _⟩ => rfl | ⟨1, _⟩ => rfl)

/-! ## One gate -/

/-- The reference's chain for a gate, at row `r` and unit `j`, is the specification's pre-activation. -/
theorem gate_at (x0 : (⟨S8192x1024, .f32⟩ : BufTy).Contents (Elt Ideal)) (x1 : (⟨S8192x2048, .f32⟩ : BufTy).Contents (Elt Ideal)) (w : (⟨S2048x1024, .f32⟩ : BufTy).Contents (Elt Ideal)) (b : (⟨S1x2048, .f32⟩ : BufTy).Contents (Elt Ideal)) (r : Fin 8192) (j : Fin 1024) :
    val_main_v12 (F := Ideal) x0 x1 w b (ix2 r j) = gate x0 x1 w b r j := by
  rw [val_main_v12_apply, val_main_v9_apply, val_main_v6_apply, val_main_v3_apply, val_main_v5_apply, val_main_v4_apply,
    val_main_v8_apply, val_main_v11_apply, val_main_v10_apply]
  simp only [val_main_v2_apply, val_main_v7_apply, val_main_v0_apply, at_x, at_wx, at_b1, at_h, at_wh, at_b2, Ideal.addf_def]
  rfl

/-- The other three gates are the same chain at their own weights and bias. -/
theorem forget_chain (x0 : (⟨S8192x1024, .f32⟩ : BufTy).Contents (Elt Ideal)) (x1 : (⟨S8192x2048, .f32⟩ : BufTy).Contents (Elt Ideal)) (w : (⟨S2048x1024, .f32⟩ : BufTy).Contents (Elt Ideal)) (b : (⟨S1x2048, .f32⟩ : BufTy).Contents (Elt Ideal)) : val_main_v29 (F := Ideal) x0 x1 w b = val_main_v12 (F := Ideal) x0 x1 w b := rfl
theorem candidate_chain (x0 : (⟨S8192x1024, .f32⟩ : BufTy).Contents (Elt Ideal)) (x1 : (⟨S8192x2048, .f32⟩ : BufTy).Contents (Elt Ideal)) (w : (⟨S2048x1024, .f32⟩ : BufTy).Contents (Elt Ideal)) (b : (⟨S1x2048, .f32⟩ : BufTy).Contents (Elt Ideal)) : val_main_v46 (F := Ideal) x0 x1 w b = val_main_v12 (F := Ideal) x0 x1 w b := rfl
theorem output_chain (x0 : (⟨S8192x1024, .f32⟩ : BufTy).Contents (Elt Ideal)) (x1 : (⟨S8192x2048, .f32⟩ : BufTy).Contents (Elt Ideal)) (w : (⟨S2048x1024, .f32⟩ : BufTy).Contents (Elt Ideal)) (b : (⟨S1x2048, .f32⟩ : BufTy).Contents (Elt Ideal)) : val_main_v61 (F := Ideal) x0 x1 w b = val_main_v12 (F := Ideal) x0 x1 w b := rfl

/-! ## The logistic function as the host spells it -/

theorem sigmoid_host (z : Ideal .f32) :
    FloatOps.hostDivf (F := Ideal) (FloatOps.ofBits .f32 0x3F800000#32)
      (FloatOps.addf (FloatOps.ofBits .f32 0x3F800000#32) (FloatOps.hostUnary .exp (FloatOps.hostNegf z))) = Ideal.logistic z := by
  simp only [Ideal.hostDivf_def, Ideal.addf_def, Ideal.hostUnary_exp_def, Ideal.hostNegf_def, Ideal.negf_def, Ideal.ofBits_def,
    Ideal.ofBits_one_f32]
  rfl

theorem input_gate (x0 : (⟨S8192x1024, .f32⟩ : BufTy).Contents (Elt Ideal)) (x1 : (⟨S8192x2048, .f32⟩ : BufTy).Contents (Elt Ideal)) (w : (⟨S2048x1024, .f32⟩ : BufTy).Contents (Elt Ideal)) (b : (⟨S1x2048, .f32⟩ : BufTy).Contents (Elt Ideal)) (i : S8192x1024.Idx) :
    val_main_v18 (F := Ideal) x0 x1 w b i = Ideal.logistic (val_main_v12 (F := Ideal) x0 x1 w b i) := by
  rw [val_main_v18_apply, val_main_v17_apply, val_main_cst_0_apply, val_main_v16_apply, val_main_v15_apply, val_main_cst_apply,
    val_main_v14_apply, val_main_v13_apply]
  exact sigmoid_host _

theorem forget_gate (x0 : (⟨S8192x1024, .f32⟩ : BufTy).Contents (Elt Ideal)) (x1 : (⟨S8192x2048, .f32⟩ : BufTy).Contents (Elt Ideal)) (w : (⟨S2048x1024, .f32⟩ : BufTy).Contents (Elt Ideal)) (b : (⟨S1x2048, .f32⟩ : BufTy).Contents (Elt Ideal)) (i : S8192x1024.Idx) :
    val_main_v35 (F := Ideal) x0 x1 w b i = Ideal.logistic (val_main_v12 (F := Ideal) x0 x1 w b i) := by
  rw [val_main_v35_apply, val_main_v34_apply, val_main_cst_2_apply, val_main_v33_apply, val_main_v32_apply, val_main_cst_1_apply,
    val_main_v31_apply, val_main_v30_apply, forget_chain]
  exact sigmoid_host _

theorem output_gate (x0 : (⟨S8192x1024, .f32⟩ : BufTy).Contents (Elt Ideal)) (x1 : (⟨S8192x2048, .f32⟩ : BufTy).Contents (Elt Ideal)) (w : (⟨S2048x1024, .f32⟩ : BufTy).Contents (Elt Ideal)) (b : (⟨S1x2048, .f32⟩ : BufTy).Contents (Elt Ideal)) (i : S8192x1024.Idx) :
    val_main_v67 (F := Ideal) x0 x1 w b i = Ideal.logistic (val_main_v12 (F := Ideal) x0 x1 w b i) := by
  rw [val_main_v67_apply, val_main_v66_apply, val_main_cst_4_apply, val_main_v65_apply, val_main_v64_apply, val_main_cst_3_apply,
    val_main_v63_apply, val_main_v62_apply, output_chain]
  exact sigmoid_host _

/-! ## The cell -/

/-- The reference's new cell state at row `r`, unit `j`. -/
theorem cell_at (x0 : (⟨S8192x1024, .f32⟩ : BufTy).Contents (Elt Ideal)) (x1 : (⟨S8192x2048, .f32⟩ : BufTy).Contents (Elt Ideal)) (x2 x3 x5 : (⟨S2048x1024, .f32⟩ : BufTy).Contents (Elt Ideal)) (x6 x7 x9 : (⟨S1x2048, .f32⟩ : BufTy).Contents (Elt Ideal)) (r : Fin 8192) (j : Fin 1024) :
    val_main_v50 (F := Ideal) x0 x1 x2 x3 x5 x6 x7 x9 (ix2 r j) = cellNew x0 x1 x2 x3 x5 x6 x7 x9 r j := by
  rw [val_main_v50_apply, val_main_v48_apply, val_main_v49_apply, forget_gate, input_gate, val_main_v47_apply, candidate_chain,
    val_main_v1_apply, at_c, gate_at, gate_at, gate_at]
  rfl

/-- The reference's new hidden state at row `r`, unit `j`. -/
theorem hidden_at (x0 : (⟨S8192x1024, .f32⟩ : BufTy).Contents (Elt Ideal)) (x1 : (⟨S8192x2048, .f32⟩ : BufTy).Contents (Elt Ideal)) (x2 x3 x4 x5 : (⟨S2048x1024, .f32⟩ : BufTy).Contents (Elt Ideal)) (x6 x7 x8 x9 : (⟨S1x2048, .f32⟩ : BufTy).Contents (Elt Ideal)) (r : Fin 8192) (j : Fin 1024) :
    val_main_v69 (F := Ideal) x0 x1 x2 x3 x4 x5 x6 x7 x8 x9 (ix2 r j) = hiddenNew x0 x1 x2 x3 x4 x5 x6 x7 x8 x9 r j := by
  rw [val_main_v69_apply, output_gate, val_main_v68_apply, cell_at, gate_at]
  rfl

/-! ## The result -/

/-- The reference's result is the specification's, at every index. -/
theorem result_eq (x0 : (⟨S8192x1024, .f32⟩ : BufTy).Contents (Elt Ideal)) (x1 : (⟨S8192x2048, .f32⟩ : BufTy).Contents (Elt Ideal)) (x2 x3 x4 x5 : (⟨S2048x1024, .f32⟩ : BufTy).Contents (Elt Ideal)) (x6 x7 x8 x9 : (⟨S1x2048, .f32⟩ : BufTy).Contents (Elt Ideal)) :
    val_main_v70 (F := Ideal) x0 x1 x2 x3 x4 x5 x6 x7 x8 x9 = out x0 x1 x2 x3 x4 x5 x6 x7 x8 x9 := by
  funext i
  obtain ⟨r, c, rfl⟩ : ∃ (r : Fin 8192) (c : Fin 2048), i = ix2 r c := ⟨i 0, i 1, eq_ix2 i⟩
  unfold val_main_v70
  by_cases hc : c.val < 1024
  · obtain ⟨q, rfl⟩ : ∃ q : Fin 1024, c = lo q := ⟨⟨c.val, hc⟩, Fin.ext rfl⟩
    rw [out_lo, ← hidden_at]
    exact concatenate_pair_apply_left (1 : Fin S8192x2048.rank) _ _ concatenates_S8192x1024_S8192x1024_S8192x2048_d1
      (ix2 r (lo q)) rfl (ix2 r q) (fun b => by match b with | ⟨0, _⟩ => rfl | ⟨1, _⟩ => rfl)
  · have hc2 : c.val < 2048 := c.isLt
    obtain ⟨q, rfl⟩ : ∃ q : Fin 1024, c = hi q :=
      ⟨⟨c.val - 1024, by omega⟩, Fin.ext (by show c.val = 1024 + (c.val - 1024); omega)⟩
    rw [out_hi, ← cell_at]
    exact concatenate_pair_apply_right (1 : Fin S8192x2048.rank) _ _ concatenates_S8192x1024_S8192x1024_S8192x2048_d1
      (ix2 r (hi q)) rfl rfl (ix2 r q)
      (fun b hb => by match b, hb with | ⟨0, _⟩, _ => rfl | ⟨1, _⟩, hb => exact absurd rfl hb)
      (by show q.val + 1024 = 1024 + q.val; omega)

end Cert.ReferenceIdeal.RefValue

end
-- ==== Proof.lean ====
/-
  An LSTM cell over a batch of 8192: a fused kernel against the plain formulas, equal over the extended reals.

  Both programs take `x` (8192 × 1024), the carried state `[h | c]` (8192 × 2048), four gates' weights (2048 × 1024 each:
  rows 0 … 1023 meet `x`, rows 1024 … 2047 meet `h`) and four gates' biases (1 × 2048 each, two halves, both added), and
  return `[h' | c']` with `c' = σ(z_f) · c + σ(z_i) · tanh(z_g)` and `h' = σ(z_o) · tanh(c')`.

  The reference computes each gate's pre-activation as `x·W[:1024] + b[:1024] + h·W[1024:] + b[1024:]`, added from the
  left, and spells the logistic function out as `1 / (1 + exp(−z))`.  The kernel lays the four gates' weights side by
  side, computes all four pre-activations as ONE pair of products per batch tile of 256 rows, adds the two products
  first and the (pre-added) two bias halves last, applies one logistic operation, and writes the two halves of the
  result tile by tile.  Over the extended reals a narrowing to bf16 is the identity, the logistic operation IS
  `1 / (1 + exp(−z))`, and the four terms of a pre-activation may be added in any grouping (addition there is associative
  and commutative, infinities included); everything else is the same functions applied to equal arguments.  So the two
  results agree at every position, with no use of the inputs' finiteness.

  Both kernel programs (the word-level one and its idealization: the same text) run to their end, fault nowhere and leave
  the ten arguments as launched: their operand preparation writes only buffers of its own, and the region's body reads its
  six input blocks and fills its output block by two stores that tile it.  The reference is host operations only.  The
  idealization rewrote nothing, so there is nothing to preserve.
-/
import proofs.«124655_j50148038148717_1_alg».proof.Defs
import proofs.«124655_j50148038148717_1_alg».proof.Proof.Gen.Kernel
import proofs.«124655_j50148038148717_1_alg».proof.Proof.Gen.KernelIdeal
import proofs.«124655_j50148038148717_1_alg».proof.Proof.Gen.ReferenceIdeal
import proofs.«124655_j50148038148717_1_alg».proof.Proof.Gen.ReferenceIdeal.Run
import proofs.«124655_j50148038148717_1_alg».proof.Proof.Gen.ReferenceIdeal.Read
import proofs.«124655_j50148038148717_1_alg».proof.Proof.Gen.Pre_finite_inputs
import proofs.«124655_j50148038148717_1_alg».proof.Proof.BitsFrame
import proofs.«124655_j50148038148717_1_alg».proof.Proof.IdealFrame
import proofs.«124655_j50148038148717_1_alg».proof.Proof.IdealValue
import proofs.«124655_j50148038148717_1_alg».proof.Proof.RefValue
import Idealize.ShloMosaic.Adequacy
import Idealize.ShloMosaic.Init

noncomputable section

namespace Cert.Proof

open Idealize.ShloMosaic Idealize.SL.Sem

/-- The word-level kernel program terminates, faults nowhere and leaves its arguments as launched. -/
theorem frame_kernel : Cert.frame_Kernel := fun m ρ _ => Cert.Kernel.Cell.frame (F := Bits) m ρ

/-- So does its idealization. -/
theorem frame_kernelIdeal : Cert.frame_KernelIdeal := fun m ρ _ => Cert.KernelIdeal.Cell.frame (F := Ideal) m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the ten arguments, the idealized kernel and the idealized reference both end with the
    specification's result of those arguments. -/
theorem algebraic : Cert.algebraic_KernelIdeal_ReferenceIdeal := by
  intro m ρ m' ρ' _ hagree
  refine ⟨fun c => Cert.KernelIdeal.Cell.result m c, Cert.KernelIdeal.Cell.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v70_eq, Cert.ReferenceIdeal.RefValue.result_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
